-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x512 : Shape := ⟨2, ![256, 512]⟩
abbrev S128x512 : Shape := ⟨2, ![128, 512]⟩
abbrev S_ : Shape := ⟨0, ![]⟩
abbrev S10000 : Shape := ⟨1, ![10000]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S128x512 : S_.BroadcastsInDim S128x512 (![] : Fin 0 → Fin S128x512.rank)
  reducesTo_S128x512_S_d0_1 : S128x512.ReducesTo [0, 1] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_arg1 : FVec F S10000x10000 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_cst_6 : FVec F S_ .f32 := constant S_ .f32 0x00000000#32
  let main_v19 : FVec F S10000 .f32 := (fun x v => Host.reduceAdd x v reducesTo_S10000x10000_S10000_d1 h_S_) main_arg1 main_cst_6
  let main_cst_7 : FVec F S_ .f32 := constant S_ .f32 0x3F800000#32
  let main_v20 : FVec F S10000 .f32 := broadcastInDim S10000 ![] bcast_S_S10000 main_cst_7
  let main_v21 : FVec F S10000 .f32 := addf main_v19 main_v20
  let main_cst_8 : FVec F S_ .f32 := constant S_ .f32 0x00000000#32
  let main_v22 : FVec F S10000 .f32 := broadcastInDim S10000 ![] bcast_S_S10000 main_cst_8
  let main_v23 : IVec S10000 1 := cmpf .une main_v21 main_v22
  let main_c_9 : IVec S_ 1 := constantI S_ 1 1#1
  let main_v24 : IVec S_ 1 := (fun x v => Host.reduce IntOp.andi x v reducesTo_S10000_S_d0 h_S_) main_v23 main_c_9
  let main_v25 : IVec S_ 1 := andi main_v18 main_v24
  main_v25

def fn {F : FTy → Type} [FloatOps F] (main_arg0 : FVec F S10000x256 .f32) (main_arg1 : FVec F S10000x10000 .f32) (main_arg2 : FVec F S256x512 .f32) (main_arg3 : FVec F S128x512 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg1 main_v13 main_v16
-- ==== Kernel.lean ====
abbrev S10000x256 : Shape := ⟨2, ![10000, 256]⟩
abbrev S10000x10000 : Shape := ⟨2, ![10000, 10000]⟩
abbrev S256x512 : Shape := ⟨2, ![256, 512]⟩
abbrev S128x512 : Shape := ⟨2, ![128, 512]⟩
abbrev S256x256 : Shape := ⟨2, ![256, 256]⟩
abbrev S128x256 : Shape := ⟨2, ![128, 256]⟩
abbrev S256x128 : Shape := ⟨2, ![256, 128]⟩
abbrev S400x256 : Shape := ⟨2, ![400, 256]⟩
abbrev S400x512 : Shape := ⟨2, ![400, 512]⟩
abbrev S10000x128 : Shape := ⟨2, ![10000, 128]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S400 : Shape := ⟨1, ![400]⟩

abbrev nBuf : Space → Nat
  | .hbm => 22
  | .vmem => 28
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S128x512, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x512, .f32⟩
  | .hbm, ⟨9, _⟩ => ⟨S128x256, .f32⟩
  | .hbm, ⟨10, _⟩ => ⟨S256x128, .f32⟩
  | .hbm, ⟨11, _⟩ => ⟨S128x256, .f32⟩
  | .hbm, ⟨12, _⟩ => ⟨S256x128, .f32⟩
  | .hbm, ⟨13, _⟩ => ⟨S256x256, .f32⟩
  | .hbm, ⟨14, _⟩ => ⟨S10000x256, .f32⟩
  | .hbm, ⟨15, _⟩ => ⟨S10000x256, .f32⟩
  | .hbm, ⟨16, _⟩ => ⟨S10000x256, .bf16⟩
  | .hbm, ⟨17, _⟩ => ⟨S10000x128, .f32⟩
  | .hbm, ⟨18, _⟩ => ⟨S10000x128, .f32⟩
  | .hbm, ⟨19, _⟩ => ⟨S10000x1, .f32⟩
  | .hbm, ⟨20, _⟩ => ⟨S10000x128, .bf16⟩
  | .hbm, ⟨21, _⟩ => ⟨S10000x128, .f32⟩
  | .local _ .vmem, ⟨0, _⟩ => ⟨S400x256, .f32⟩
  | .local _ .vmem, ⟨1, _⟩ => ⟨S400x256, .f32⟩
  | .local _ .vmem, ⟨2, _⟩ => ⟨S256x512, .f32⟩
  | .local _ .vmem, ⟨3, _⟩ => ⟨S400x256, .f32⟩
  | .local _ .vmem, ⟨4, _⟩ => ⟨S400x256, .f32⟩
  | .local _ .vmem, ⟨5, _⟩ => ⟨S400x256, .f32⟩
  | .local _ .vmem, ⟨6, _⟩ => ⟨S400x256, .f32⟩
  | .local _ .vmem, ⟨7, _⟩ => ⟨S400x10000, .f32⟩
  | .local _ .vmem, ⟨8, _⟩ => ⟨S400x10000, .f32⟩
  | .local _ .vmem, ⟨9, _⟩ => ⟨S10000x256, .bf16⟩
  | .local _ .vmem, ⟨10, _⟩ => ⟨S400x256, .f32⟩
  | .local _ .vmem, ⟨11, _⟩ => ⟨S400x256, .f32⟩
  | .local _ .vmem, ⟨12, _⟩ => ⟨S256x256, .f32⟩
  | .local _ .vmem, ⟨13, _⟩ => ⟨S400x128, .f32⟩
  | .local _ .vmem, ⟨14, _⟩ => ⟨S400x128, .f32⟩
  | .local _ .vmem, ⟨15, _⟩ => ⟨S400x128, .f32⟩
  | .local _ .vmem, ⟨16, _⟩ => ⟨S400x128, .f32⟩
  | .local _ .vmem, ⟨17, _⟩ => ⟨S400x1, .f32⟩
  | .local _ .vmem, ⟨18, _⟩ => ⟨S400x1, .f32⟩
  | .local _ .vmem, ⟨19, _⟩ => ⟨S400x10000, .f32⟩
  | .local _ .vmem, ⟨20, _⟩ => ⟨S400x10000, .f32⟩
  | .local _ .vmem, ⟨21, _⟩ => ⟨S10000x128, .bf16⟩
  | .local _ .vmem, ⟨22, _⟩ => ⟨S400x128, .f32⟩
  | .local _ .vmem, ⟨23, _⟩ => ⟨S400x128, .f32⟩
  | .local _ .vmem, ⟨24, _⟩ => ⟨S400x1, .f32⟩
  | .local _ .vmem, ⟨25, _⟩ => ⟨S400x1, .f32⟩
  | .local _ .vmem, ⟨26, _⟩ => ⟨S400x128, .f32⟩
  | .local _ .vmem, ⟨27, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S256x512_S256x256_0_0 : S256x512.Slices ![0, 0] S256x256
  transposes_S256x256_S256x256_1_0 : S256x256.Transposes [1, 0] S256x256
  slices_S256x512_S256x256_0_256 : S256x512.Slices ![0, 256] S256x256
  concatenates_S256x256_S256x256_S256x512_d1 : Shape.Concatenates [S256x256, S256x256] S256x512 1
  slices_S128x512_S128x256_0_0 : S128x512.Slices ![0, 0] S128x256
  transposes_S128x256_S256x128_1_0 : S128x256.Transposes [1, 0] S256x128
  slices_S128x512_S128x256_0_256 : S128x512.Slices ![0, 256] S128x256
  concatenates_S256x128_S256x128_S256x256_d1 : Shape.Concatenates [S256x128, S256x128] S256x256 1
  inb_S400x256_S400x256_0_0 : ∀ a, (![0, 0] : Fin 2 → Nat) a + S400x256.size a ≤ S400x256.size a
  h_S400x256 : 0 < S400x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S400x512_o0_0_S400x256 : S400x512.Slices ![0, 0] S400x256
  slices_S400x512_o0_256_S400x256 : S400x512.Slices ![0, 256] S400x256
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  reduces_S400x10000_S400 : S400x10000.Reduces [1] S400
  shapeCasts_S400_S400x1 : S400.ShapeCasts S400x1
  shapeCasts_S400x256_S400x256 : S400x256.ShapeCasts S400x256
  broadcasts_S400x1_S400x256 : S400x1.Broadcasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S400x256_o0_0_S400x128 : S400x256.Slices ![0, 0] S400x128
  inb_S400x128_S400x128_0_0 : ∀ a, (![0, 0] : Fin 2 → Nat) a + S400x128.size a ≤ S400x128.size a
  h_S400x128 : 0 < S400x128.numel
  slices_S400x256_o0_128_S400x128 : S400x256.Slices ![0, 128] S400x128
  inb_S400x1_S400x1_0_0 : ∀ a, (![0, 0] : Fin 2 → Nat) a + S400x1.size a ≤ S400x1.size a
  h_S400x1 : 0 < S400x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x128_S400x128 : S400x128.ShapeCasts S400x128
  shapeCasts_S400x1_S400x1 : S400x1.ShapeCasts S400x1
  broadcasts_S400x1_S400x128 : S400x1.Broadcasts S400x128
  dot_S400x256_S256x512_S400x512_1_0_0_1_n_n_wf : DotDims.WF S400x256 S256x512 S400x512 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .f32 = 32 ∨ (Rect.block (s := S10000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S10000x256.size a
  hwx0_2 : ∀ i : grid0.Coords, EltTy.bits .f32 = 32 ∨ (Rect.block (s := S10000x256) S400x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x1.size a ≤ S10000x1.size a
  hwx1_6 : ∀ i : grid1.Coords, EltTy.bits .f32 = 32 ∨ (Rect.block (s := S10000x1) S400x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)

variable [Facts₀]

def dot_S400x256_S256x512_S400x512_1_0_0_1_n_n : DotDims S400x256 S256x512 S400x512 where
  lhsContracting := [1]
  rhsContracting := [0]
  lhsNonContracting := [0]
  rhsNonContracting := [1]
  lhsBatch := []
  rhsBatch := []
  wf := dot_S400x256_S256x512_S400x512_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S400x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_1) S400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_2) S400x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12_2) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x512 : Shape := ⟨2, ![256, 512]⟩
abbrev S128x512 : Shape := ⟨2, ![128, 512]⟩
abbrev S_ : Shape := ⟨0, ![]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S512x128 : Shape := ⟨2, ![512, 128]⟩
abbrev S10000x128 : Shape := ⟨2, ![10000, 128]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S128x512, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S10000x512, .f32⟩
  | .hbm, ⟨14, _⟩ => ⟨S512x256, .f32⟩
  | .hbm, ⟨15, _⟩ => ⟨S10000x256, .f32⟩
  | .hbm, ⟨16, _⟩ => ⟨S_, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S10000x512, .f32⟩
  | .hbm, ⟨29, _⟩ => ⟨S512x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S_S10000x256 : S_.BroadcastsInDim S10000x256 (![] : Fin 0 → Fin S10000x256.rank)
  transposes_S128x512_S512x128_1_0 : S128x512.Transposes [1, 0] S512x128
  bcast_S_S10000x128 : S_.BroadcastsInDim S10000x128 (![] : Fin 0 → Fin S10000x128.rank)
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []
  dot_S10000x512_S512x128_S10000x128_1_0_0_1_n_n_wf : DotDims.WF S10000x512 S512x128 S10000x128 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Spec.lean ====
/-
  One graph-convolution layer with mean aggregation over a dense weighted adjacency, in two arrangements.

  For node features `Y` (one row per node), edge weights `A` and a weight matrix `W = [Wl | Wr]` the layer is

      relu ( [ Y | (A·Y) / d ] · Wᵀ ),      d r = (∑ l, A r l) + 1.

  The first arrangement (`layerR`) is this formula as it stands: the row of features and the row of
  neighbourhood means laid end to end, one product with `Wᵀ`.  The second (`layerK`) projects first and
  aggregates afterwards:  relu ( Y·Wlᵀ + (A·(Y·Wrᵀ)) / d ).  Over the reals, where no `d r` vanishes, the two
  agree: the division by `d r` is a product with a constant of the row, and the sums commute.  On the
  extended reals a vanishing `d r` sends the quotient to an infinity of the numerator's sign, which the
  two arrangements take of different numerators; hence the hypothesis.
-/
import Idealize.ShloMosaic.Lib.ValueIdx
import Idealize.ShloMosaic.PureOps.Ideal.Laws
import Idealize.ShloMosaic.Lib.IdealHost
import proofs.«178860_g29755533426829_cont_9to1_2196_2_alg».proof.Proof.LibRowOps

noncomputable section

open scoped BigOperators

namespace Sage

open Idealize.ShloMosaic Idealize.ShloMosaic.ValueIdx

/-- A matrix of extended reals, indexed as the arrays of the programs are. -/
abbrev Arr (R C : ℕ) := (⟨2, ![R, C]⟩ : Shape).Idx → EReal

variable {N D O C : ℕ}

/-- The weighted degree of node `r`, plus one. -/
def deg (A : Arr N N) (r : Fin N) : EReal := (∑ l : Fin N, A (ix2 r l)) + 1

/-- The neighbourhood mean of the features `Y` at node `r`: row `r` of `A·Y` over `deg A r`. -/
def mean (A : Arr N N) (Y : Fin N → Fin D → EReal) (r : Fin N) (k : Fin D) : EReal :=
  Ideal.div (∑ l : Fin N, A (ix2 r l) * Y l k) (deg A r)

/-- The left half of the weight's columns: the part that meets the node's own features. -/
def wl (hC : C = D + D) (W : Arr O C) (j : Fin O) (k : Fin D) : EReal := W (ix2 j ⟨k.val, by omega⟩)

/-- The right half of the weight's columns: the part that meets the neighbourhood mean. -/
def wr (hC : C = D + D) (W : Arr O C) (j : Fin O) (k : Fin D) : EReal := W (ix2 j ⟨D + k.val, by omega⟩)

/-- The layer as the formula has it: features and mean laid end to end, one product with `Wᵀ`, positive part. -/
def layerR (A : Arr N N) (W : Arr O C) (Y : Fin N → Fin D → EReal) (r : Fin N) : Fin O → EReal :=
  RowOps.relu fun j => ∑ k : Fin C, RowOps.cat2 C (Y r) (mean A Y r) k * W (ix2 j k)

/-- The layer with the projection first: `Y·Wlᵀ` plus the aggregated `Y·Wrᵀ` over the degree, positive part. -/
def layerK (hC : C = D + D) (A : Arr N N) (W : Arr O C) (Y : Fin N → Fin D → EReal) (r : Fin N) : Fin O → EReal :=
  RowOps.relu fun j => (∑ k : Fin D, Y r k * wl hC W j k)
    + Ideal.div (∑ l : Fin N, A (ix2 r l) * ∑ k : Fin D, Y l k * wr hC W j k) (deg A r)

/-- Every entry is a real number. -/
def IsReal {ι : Type} (f : ι → EReal) : Prop := ∀ i, ∃ y : ℝ, f i = (y : EReal)

/-- A matrix from its entries by row and column. -/
def toArr {R K : ℕ} (f : Fin R → Fin K → EReal) : Arr R K := fun i => f (i 0) (i 1)

theorem toArr_ix2 {R K : ℕ} (f : Fin R → Fin K → EReal) (p : Fin R) (q : Fin K) : toArr f (ix2 p q) = f p q := rfl

/-- Two matrices with the same entries are equal. -/
theorem arr_ext {R K : ℕ} (a : Arr R K) (f : Fin R → Fin K → EReal) (h : ∀ p q, a (ix2 p q) = f p q) : a = toArr f := by
  funext i
  obtain ⟨p, q, rfl⟩ : ∃ (p : Fin R) (q : Fin K), i = ix2 p q := ⟨i 0, i 1, eq_ix2 i⟩
  exact h p q

end Sage

end
-- ==== Proof.K0.lean ====
/-
  The projection region: every block of 400 rows of the features is multiplied by the rearranged weight
  `[Wlᵀ | Wrᵀ]`, and the product's two halves of columns are written to two arrays.  After the run the first
  holds `x · c` restricted to the left 256 columns of `c`, the second to the right 256 columns, whatever the
  arrays `x` and `c` hold when the region is entered.
-/
import proofs.«178860_g29755533426829_cont_9to1_2196_2_alg».proof.Proof.Gen.KernelIdeal.Frame
import proofs.«178860_g29755533426829_cont_9to1_2196_2_alg».proof.Proof.Spec
import Idealize.ShloMosaic.Lib.Pipeline.Value
import Idealize.ShloMosaic.Lib.ValueLayout

set_option maxRecDepth 16384

noncomputable section

open scoped BigOperators

namespace Sage.K0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The features as the region finds them. -/
abbrev xin (c : Dev nD) : S10000x256.Idx → EReal := V c main_arg0
/-- The rearranged weight as the region finds it. -/
abbrev cin (c : Dev nD) : S256x512.Idx → EReal := V c main_v4

/-! ## The body's arithmetic, entry by entry -/

theorem zeros2 : (![0, 0] : Fin 2 → Nat) = fun _ => 0 := funext fun a => by fin_cases a <;> rfl

/-- The product of a block of 400 rows with the weight, entry by entry: row `p` of the block against
    column `q` of the weight. -/
theorem pay_at (x0 : Vec Ideal S400x256 .f32) (x1 : Vec Ideal S256x512 .f32) (p : Fin 400) (q : Fin 512) :
    k0_pay1 (F := Ideal) x0 x1 (ix2 p q) = ∑ k : Fin 256, x0 (ix2 p k) * x1 (ix2 k q) := by
  unfold k0_pay1
  rw [shapeCast_self]
  exact RowOps.matmul_plain_apply dot_S400x256_S256x512_S400x512_1_0_0_1_n_n rfl none x0 x1 p q

/-- The left half of the columns of a matrix of 512 columns: column `q` of the half is column `q`. -/
theorem cols_left (z : FVec Ideal S400x512 .f32) (p : Fin 400) (q : Fin 256) :
    extractStridedSlice S400x256 ![0, 0] z slices_S400x512_o0_0_S400x256 (ix2 p q) = z (ix2 p (⟨q.val, by omega⟩ : Fin 512)) := by
  refine extractStridedSlice_apply ![0, 0] z slices_S400x512_o0_0_S400x256 (ix2 p q) (ix2 p (⟨q.val, by omega⟩ : Fin 512)) ?_
  intro a
  match a with
  | ⟨0, _⟩ => show p.val = 0 + p.val; omega
  | ⟨1, _⟩ => show q.val = 0 + q.val; omega

/-- The right half of the columns of a matrix of 512 columns: column `q` of the half is column `256 + q`. -/
theorem cols_right (z : FVec Ideal S400x512 .f32) (p : Fin 400) (q : Fin 256) :
    extractStridedSlice S400x256 ![0, 256] z slices_S400x512_o0_256_S400x256 (ix2 p q) = z (ix2 p (⟨256 + q.val, by omega⟩ : Fin 512)) := by
  refine extractStridedSlice_apply ![0, 256] z slices_S400x512_o0_256_S400x256 (ix2 p q) (ix2 p (⟨256 + q.val, by omega⟩ : Fin 512)) ?_
  intro a
  match a with
  | ⟨0, _⟩ => show p.val = 0 + p.val; omega
  | ⟨1, _⟩ => show 256 + q.val = 256 + q.val; rfl

/-- What the body stores to the first output, entry by entry: the product's left columns. -/
theorem pay_left (x0 : Vec Ideal S400x256 .f32) (x1 : Vec Ideal S256x512 .f32) (p : Fin 400) (q : Fin 256) :
    k0_pay2 (F := Ideal) x0 x1 (ix2 p q) = ∑ k : Fin 256, x0 (ix2 p k) * x1 (ix2 k (⟨q.val, by omega⟩ : Fin 512)) :=
  (cols_left (k0_pay1 (F := Ideal) x0 x1) p q).trans (pay_at x0 x1 p _)

/-- What the body stores to the second output, entry by entry: the product's right columns. -/
theorem pay_right (x0 : Vec Ideal S400x256 .f32) (x1 : Vec Ideal S256x512 .f32) (p : Fin 400) (q : Fin 256) :
    k0_pay3 (F := Ideal) x0 x1 (ix2 p q) = ∑ k : Fin 256, x0 (ix2 p k) * x1 (ix2 k (⟨256 + q.val, by omega⟩ : Fin 512)) :=
  (cols_right (k0_pay1 (F := Ideal) x0 x1) p q).trans (pay_at x0 x1 p _)

/-! ## The blocks at a grid point, read back to the arrays -/

/-- Where each array's block sits at grid point `t`: the features' and the two outputs' blocks are the
    `t`-th blocks of 400 rows, the weight's block is the whole weight. Decided over the 25 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 25 := lt_of_lt_of_eq t.isLt N_0

/-- Row `p` of the block of features at point `t` is row `400·t + p` of the features. -/
theorem xblk_apply (c : Dev nD) (t : Fin cfg0.N) (p : Fin 400) (k : Fin 256) :
    iblk0 (F := Ideal) V c 0 t (ix2 p k)
      = xin V c (ix2 (⟨400 * t.val + p.val, by have := point_lt t; omega⟩ : Fin 10000) k) := by
  obtain ⟨e0, e1, -⟩ := block_index t
  unfold iblk0
  show V c main_arg0 (((cfg0.win 0).blk t).view.emb (ix2 p k)) = _
  refine congrArg (V c main_arg0) ?_
  funext a; apply Fin.ext
  match a with
  | ⟨0, _⟩ => show win0_0.index t (0 : Fin 2) * 400 + 1 * p.val = 400 * t.val + p.val; omega
  | ⟨1, _⟩ => show win0_0.index t (1 : Fin 2) * 256 + 1 * k.val = k.val; omega

/-- The weight's block at every point is the whole weight. -/
theorem cblk_eq (c : Dev nD) (t : Fin cfg0.N) : iblk0 (F := Ideal) V c 1 t = cin V c := by
  obtain ⟨-, -, e2, e3, -⟩ := block_index t
  unfold iblk0
  funext j
  show V c main_v4 (((cfg0.win 1).blk t).view.emb j) = V c main_v4 j
  refine congrArg (V c main_v4) ?_
  funext a; apply Fin.ext
  match a with
  | ⟨0, _⟩ => show win0_1.index t (0 : Fin 2) * 256 + 1 * (j 0).val = (j 0).val; omega
  | ⟨1, _⟩ => show win0_1.index t (1 : Fin 2) * 512 + 1 * (j 1).val = (j 1).val; omega

/-! ## The first output: the product's left columns -/

/-- What the first output array holds in the end. -/
abbrev Gs (c : Dev nD) : Arr 10000 256 :=
  toArr (fun (r : Fin 10000) (j : Fin 256) => ∑ k : Fin 256, xin V c (ix2 r k) * cin V c (ix2 k (⟨j.val, by omega⟩ : Fin 512)))

/-- Entry `(p, q)` of the first output's block at point `t` sits at row `400·t + p`, column `q` of the array. -/
theorem sblk_emb (t : Fin cfg0.N) (p : Fin 400) (q : Fin 256) :
    ((cfg0.win 2).blk t).view.emb (ix2 p q) = ix2 (⟨400 * t.val + p.val, by have := point_lt t; omega⟩ : Fin 10000) q := by
  obtain ⟨-, -, -, -, e4, e5, -⟩ := block_index t
  funext a; apply Fin.ext
  match a with
  | ⟨0, _⟩ => show win0_2.index t (0 : Fin 2) * 400 + 1 * p.val = 400 * t.val + p.val; omega
  | ⟨1, _⟩ => show win0_2.index t (1 : Fin 2) * 256 + 1 * q.val = q.val; omega

/-- What point `t` writes back to the first output is block `t` of the product's left columns. -/
theorem flushed_s (c : Dev nD) (t : Fin cfg0.N) :
    (dat0 (F := Ideal) V c).flushed 2 t = ((cfg0.win 2).blk t).view.read (Elt Ideal) (Gs V c) := by
  show (cfg0.win 2).cut (grid0.coords t) ((dat0 (F := Ideal) V c).after 2 t) = _
  rw [after0_2]
  unfold out0_2
  rw [View.canon_unit_zero zeros2]
  simp only [View.ld_unit_zero (S := S400x256) zeros2, View.ld_unit_zero (S := S256x512) zeros2]
  rw [cblk_eq]
  funext j
  obtain ⟨p, q, rfl⟩ : ∃ (p : Fin 400) (q : Fin 256), j = ix2 p q := ⟨j 0, j 1, eq_ix2 j⟩
  show k0_pay2 (F := Ideal) (iblk0 (F := Ideal) V c 0 t) (cin V c) (ix2 p q) = Gs V c (((cfg0.win 2).blk t).view.emb (ix2 p q))
  rw [pay_left, sblk_emb]
  exact Finset.sum_congr rfl fun k _ => by rw [xblk_apply]

/-- An index of the first output array is in point `t`'s block iff each coordinate is in the block's range. -/
theorem mem_sblk (t : Fin cfg0.N) (i : S10000x256.Idx) :
    i ∈ ((cfg0.win 2).blk t).view.set ↔ ∀ a : Fin 2, win0_2.index t a * S400x256.size a ≤ (i a).val ∧ (i a).val < win0_2.index t a * S400x256.size a + S400x256.size a := by
  show i ∈ ((View.whole main_v10_0).slice (win0_2.rect t)).set ↔ _
  rw [View.set_slice_whole, Rect.mem_set_unit]
  exact Iff.rfl

/-- Every entry of the first output array is written by the point of its row's block: row `r` by point `r / 400`. -/
theorem cover_s (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ : ∃ t : Fin cfg0.N, t.val = (i 0).val / 400 :=
    ⟨⟨(i 0).val / 400, lt_of_lt_of_eq (by omega : (i 0).val / 400 < 25) N_0.symm⟩, rfl⟩
  refine ⟨t, flush0_2 t, ?_⟩
  rw [mem_sblk]
  obtain ⟨-, -, -, -, e4, e5, -⟩ := block_index t
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 256 ≤ (i 1).val ∧ (i 1).val < win0_2.index t (1 : Fin 2) * 256 + 256; omega

/-- The first output array after the run: the features times the left half of the weight's columns. -/
theorem final_s (c : Dev nD) :
    (dat0 (F := Ideal) V c).arrAt 2 cfg0.N
      = toArr (fun (r : Fin 10000) (j : Fin 256) => ∑ k : Fin 256, xin V c (ix2 r k) * cin V c (ix2 k (⟨j.val, by omega⟩ : Fin 512))) :=
  (dat0 (F := Ideal) V c).arrAt_eq_of_cover 2 (Gs V c) (fun t _ => flushed_s V c t) cover_s

/-! ## The second output: the product's right columns -/

/-- What the second output array holds in the end. -/
abbrev Gp (c : Dev nD) : Arr 10000 256 :=
  toArr (fun (r : Fin 10000) (j : Fin 256) => ∑ k : Fin 256, xin V c (ix2 r k) * cin V c (ix2 k (⟨256 + j.val, by omega⟩ : Fin 512)))

/-- Entry `(p, q)` of the second output's block at point `t` sits at row `400·t + p`, column `q` of the array. -/
theorem pblk_emb (t : Fin cfg0.N) (p : Fin 400) (q : Fin 256) :
    ((cfg0.win 3).blk t).view.emb (ix2 p q) = ix2 (⟨400 * t.val + p.val, by have := point_lt t; omega⟩ : Fin 10000) q := by
  obtain ⟨-, -, -, -, -, -, e6, e7⟩ := block_index t
  funext a; apply Fin.ext
  match a with
  | ⟨0, _⟩ => show win0_3.index t (0 : Fin 2) * 400 + 1 * p.val = 400 * t.val + p.val; omega
  | ⟨1, _⟩ => show win0_3.index t (1 : Fin 2) * 256 + 1 * q.val = q.val; omega

/-- What point `t` writes back to the second output is block `t` of the product's right columns. -/
theorem flushed_p (c : Dev nD) (t : Fin cfg0.N) :
    (dat0 (F := Ideal) V c).flushed 3 t = ((cfg0.win 3).blk t).view.read (Elt Ideal) (Gp V c) := by
  show (cfg0.win 3).cut (grid0.coords t) ((dat0 (F := Ideal) V c).after 3 t) = _
  rw [after0_3]
  unfold out0_3
  rw [View.canon_unit_zero zeros2]
  simp only [View.ld_unit_zero (S := S400x256) zeros2, View.ld_unit_zero (S := S256x512) zeros2]
  rw [cblk_eq]
  funext j
  obtain ⟨p, q, rfl⟩ : ∃ (p : Fin 400) (q : Fin 256), j = ix2 p q := ⟨j 0, j 1, eq_ix2 j⟩
  show k0_pay3 (F := Ideal) (iblk0 (F := Ideal) V c 0 t) (cin V c) (ix2 p q) = Gp V c (((cfg0.win 3).blk t).view.emb (ix2 p q))
  rw [pay_right, pblk_emb]
  exact Finset.sum_congr rfl fun k _ => by rw [xblk_apply]

/-- An index of the second output array is in point `t`'s block iff each coordinate is in the block's range. -/
theorem mem_pblk (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v10_1).slice (win0_3.rect t)).set ↔ _
  rw [View.set_slice_whole, Rect.mem_set_unit]
  exact Iff.rfl

/-- Every entry of the second output array is written by the point of its row's block: row `r` by point `r / 400`. -/
theorem cover_p (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ : ∃ t : Fin cfg0.N, t.val = (i 0).val / 400 :=
    ⟨⟨(i 0).val / 400, lt_of_lt_of_eq (by omega : (i 0).val / 400 < 25) N_0.symm⟩, rfl⟩
  refine ⟨t, flush0_3 t, ?_⟩
  rw [mem_pblk]
  obtain ⟨-, -, -, -, -, -, e6, e7⟩ := block_index t
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 256 ≤ (i 1).val ∧ (i 1).val < win0_3.index t (1 : Fin 2) * 256 + 256; omega

/-- The second output array after the run: the features times the right half of the weight's columns. -/
theorem final_p (c : Dev nD) :
    (dat0 (F := Ideal) V c).arrAt 3 cfg0.N
      = toArr (fun (r : Fin 10000) (j : Fin 256) => ∑ k : Fin 256, xin V c (ix2 r k) * cin V c (ix2 k (⟨256 + j.val, by omega⟩ : Fin 512))) :=
  (dat0 (F := Ideal) V c).arrAt_eq_of_cover 3 (Gp V c) (fun t _ => flushed_p V c t) cover_p

end Sage.K0

end
-- ==== Proof.K1.lean ====
/-
  The first aggregation region: for every block of 400 nodes, the weighted degrees plus one, the hidden
  features  relu (s + (A·p) / d),  and their product with the second layer's rearranged weight, whose two halves
  of columns go to two arrays; the degrees go to a third.  Stated for whatever the arrays `A`, `p`, `s`, `c` hold
  when the region is entered.
-/
import proofs.«178860_g29755533426829_cont_9to1_2196_2_alg».proof.Proof.Gen.KernelIdeal.Frame
import proofs.«178860_g29755533426829_cont_9to1_2196_2_alg».proof.Proof.Spec
import Idealize.ShloMosaic.Lib.Pipeline.Value
import Idealize.ShloMosaic.Lib.ValueLayout

set_option maxRecDepth 16384

noncomputable section

open scoped BigOperators

namespace Sage.K1

open Idealize.ShloMosaic Idealize.ShloMosaic.TcCoe Idealize.ShloMosaic.ValueIdx Idealize.SL.Sem
open Cert.KernelIdeal Cert.KernelIdeal.Gen

/-! ## The body's arithmetic on one block of 400 nodes -/

/-- A reduced row index with the lane coordinate put back is the entry of that row and lane. -/
theorem lift_row (h : S400x10000.Reduces [1] S400) (p : Fin 400) (k : Fin (S400x10000.size 1)) :
    h.lift (ix1 p) k = ix2 p (⟨k.val, k.isLt⟩ : Fin 10000) := by
  funext a; apply Fin.ext
  match a with
  | ⟨0, _⟩ => rfl
  | ⟨1, _⟩ => rfl

/-- The sum along the lanes of a block of edge weights, at row p: the sum of that row. -/
theorem rowsum_apply (a0 : FVec Ideal S400x10000 .f32) (h : S400x10000.Reduces [1] S400) (hφ : FKind.Formats .f32)
    (hacc : (0x00000000#32 : BitVec 32) = 0x00000000#32) (p : Fin 400) :
    multiReduction (F := Ideal) .add [1] S400 a0 0x00000000#32 h hφ hacc (ix1 p) = ∑ l : Fin 10000, a0 (ix2 p l) := by
  refine (Ideal.multiReduction_add_single a0 0x00000000#32 h hφ hacc (ix1 p)).trans ?_
  exact Finset.sum_congr rfl fun k _ => congrArg a0 (lift_row h p k)

/-- The degree column of a block: the row's sum, as one column, plus the constant one. -/
theorem degcol_apply (a0 : FVec Ideal S400x10000 .f32) (p : Fin 400) :
    k1_pay1 (F := Ideal) a0 (ix2 p (0 : Fin 1)) = (∑ l : Fin 10000, a0 (ix2 p l)) + 1 := by
  unfold k1_pay1
  show shapeCast S400x1 (multiReduction (F := Ideal) .add [1] S400 a0 0x00000000#32 reduces_S400x10000_S400 (.inl rfl) rfl) shapeCasts_S400_S400x1 (ix2 p (0 : Fin 1))
      + Ideal.ofBits .f32 0x3F800000#32 = _
  rw [Ideal.ofBits_one_f32]
  congr 1
  refine (shapeCast_apply _ shapeCasts_S400_S400x1 (ix2 p (0 : Fin 1)) (ix1 p) ?_).trans ?_
  · rw [Shape.rowMajor_val_two, Shape.rowMajor_val_one]
    show p.val = p.val * 1 + 0
    omega
  · exact rowsum_apply a0 _ _ _ p

/-- The hidden features of row p of a block, from the block of edge weights, all projected features and the block of
    the nodes' own projected features. -/
def hidB (a0 : FVec Ideal S400x10000 .f32) (p2 : FVec Ideal S10000x256 .bf16) (s9 : FVec Ideal S400x256 .f32) (p : Fin 400) :
    Fin 256 → EReal :=
  RowOps.relu fun k => s9 (ix2 p k)
    + Ideal.div (∑ l : Fin 10000, a0 (ix2 p l) * p2 (ix2 l k)) ((∑ l : Fin 10000, a0 (ix2 p l)) + 1)

/-- The aggregation's contraction is the plain matrix product's. -/
theorem dotAgg_plain : dot_S400x10000_S10000x256_S400x256_1_0_0_1_n_n = DotDims.plain 400 10000 256 := rfl

/-- So is the second product's. -/
theorem dotOut_plain : dot_S400x256_S256x256_S400x256_1_0_0_1_n_n = DotDims.plain 400 256 256 := rfl

/-- The aggregation: the block of edge weights, narrowed, times the projected features, at (p, k). -/
theorem agg_apply (a0 : FVec Ideal S400x10000 .f32) (p2 : FVec Ideal S10000x256 .bf16) (p : Fin 400) (k : Fin 256) :
    matmul (F := Ideal) dot_S400x10000_S10000x256_S400x256_1_0_0_1_n_n none (truncf .bf16 a0 bitsLt_bf16_f32)
        (shapeCast S10000x256 p2 shapeCasts_S10000x256_S10000x256) (constant S400x256 .f32 0x00000000#32) (ix2 p k)
      = ∑ l : Fin 10000, a0 (ix2 p l) * p2 (ix2 l k) := by
  rw [shapeCast_self]
  exact RowOps.matmul_plain_apply dot_S400x10000_S10000x256_S400x256_1_0_0_1_n_n dotAgg_plain none (truncf .bf16 a0 bitsLt_bf16_f32) p2 p k

/-- The positive part of own features plus aggregation over degree, at (p, k): the hidden features. -/
theorem hidden_apply (a0 : FVec Ideal S400x10000 .f32) (p2 : FVec Ideal S10000x256 .bf16) (s9 : FVec Ideal S400x256 .f32)
    (p : Fin 400) (k : Fin 256) :
    maximumf (F := Ideal) (addf (shapeCast S400x256 s9 shapeCasts_S400x256_S400x256)
        (divf (matmul dot_S400x10000_S10000x256_S400x256_1_0_0_1_n_n none (truncf .bf16 a0 bitsLt_bf16_f32)
            (shapeCast S10000x256 p2 shapeCasts_S10000x256_S10000x256) (constant S400x256 .f32 0x00000000#32))
          (broadcastTo S400x256 (k1_pay1 a0) broadcasts_S400x1_S400x256)))
      (broadcast S400x256 (Scalar.ofBits (F := Ideal) .f32 0x00000000#32)) (ix2 p k) = hidB a0 p2 s9 p k := by
  refine (RowOps.relu_kernel_apply _ p k).trans ?_
  unfold hidB
  refine congrFun (congrArg RowOps.relu (funext fun j => ?_)) k
  show shapeCast S400x256 s9 shapeCasts_S400x256_S400x256 (ix2 p j)
      + Ideal.div (matmul (F := Ideal) dot_S400x10000_S10000x256_S400x256_1_0_0_1_n_n none (truncf .bf16 a0 bitsLt_bf16_f32)
            (shapeCast S10000x256 p2 shapeCasts_S10000x256_S10000x256) (constant S400x256 .f32 0x00000000#32) (ix2 p j))
          (broadcastTo S400x256 (k1_pay1 (F := Ideal) a0) broadcasts_S400x1_S400x256 (ix2 p j)) = _
  rw [shapeCast_self, agg_apply, RowOps.broadcastTo_a1_ab_apply, degcol_apply]

/-- The second product of a block, at (p, q): the hidden row p against column q of the weight. -/
theorem prod_apply (a0 : FVec Ideal S400x10000 .f32) (p2 : FVec Ideal S10000x256 .bf16) (s9 : FVec Ideal S400x256 .f32)
    (c16 : FVec Ideal S256x256 .f32) (p : Fin 400) (q : Fin 256) :
    k1_pay2 (F := Ideal) a0 p2 s9 c16 (ix2 p q) = ∑ k : Fin 256, hidB a0 p2 s9 p k * c16 (ix2 k q) := by
  unfold k1_pay2
  refine (RowOps.matmul_plain_apply dot_S400x256_S256x256_S400x256_1_0_0_1_n_n dotOut_plain none _ _ p q).trans ?_
  refine Finset.sum_congr rfl fun k _ => ?_
  exact congrArg₂ (· * ·) (hidden_apply a0 p2 s9 p k) (congrFun (shapeCast_self c16 shapeCasts_S256x256_S256x256) (ix2 k q))

/-- The left half of an array's columns, at (p, j): the array at column j. -/
theorem leftCols_apply (x : FVec Ideal S400x256 .f32) (p : Fin 400) (j : Fin 128) (hq : j.val < 256) :
    extractStridedSlice S400x128 ![0, 0] x slices_S400x256_o0_0_S400x128 (ix2 p j) = x (ix2 p (⟨j.val, hq⟩ : Fin 256)) :=
  extractStridedSlice_apply ![0, 0] x slices_S400x256_o0_0_S400x128 (ix2 p j) (ix2 p (⟨j.val, hq⟩ : Fin 256)) (fun a => by
    match a with
    | ⟨0, _⟩ => show p.val = 0 + p.val; omega
    | ⟨1, _⟩ => show j.val = 0 + j.val; omega)

/-- The right half of an array's columns, at (p, j): the array at column 128 + j. -/
theorem rightCols_apply (x : FVec Ideal S400x256 .f32) (p : Fin 400) (j : Fin 128) (hq : 128 + j.val < 256) :
    extractStridedSlice S400x128 ![0, 128] x slices_S400x256_o0_128_S400x128 (ix2 p j) = x (ix2 p (⟨128 + j.val, hq⟩ : Fin 256)) :=
  extractStridedSlice_apply ![0, 128] x slices_S400x256_o0_128_S400x128 (ix2 p j) (ix2 p (⟨128 + j.val, hq⟩ : Fin 256)) (fun a => by
    match a with
    | ⟨0, _⟩ => show p.val = 0 + p.val; omega
    | ⟨1, _⟩ => show 128 + j.val = 128 + j.val; omega)

/-- The left half of the product's columns, at (p, j). -/
theorem left_apply (a0 : FVec Ideal S400x10000 .f32) (p2 : FVec Ideal S10000x256 .bf16) (s9 : FVec Ideal S400x256 .f32)
    (c16 : FVec Ideal S256x256 .f32) (p : Fin 400) (j : Fin 128) (hq : j.val < 256) :
    k1_pay3 (F := Ideal) a0 p2 s9 c16 (ix2 p j)
      = ∑ k : Fin 256, hidB a0 p2 s9 p k * c16 (ix2 k (⟨j.val, hq⟩ : Fin 256)) := by
  unfold k1_pay3
  exact (leftCols_apply (k1_pay2 (F := Ideal) a0 p2 s9 c16) p j hq).trans (prod_apply a0 p2 s9 c16 p (⟨j.val, hq⟩ : Fin 256))

/-- The right half of the product's columns, at (p, j). -/
theorem right_apply (a0 : FVec Ideal S400x10000 .f32) (p2 : FVec Ideal S10000x256 .bf16) (s9 : FVec Ideal S400x256 .f32)
    (c16 : FVec Ideal S256x256 .f32) (p : Fin 400) (j : Fin 128) (hq : 128 + j.val < 256) :
    k1_pay4 (F := Ideal) a0 p2 s9 c16 (ix2 p j)
      = ∑ k : Fin 256, hidB a0 p2 s9 p k * c16 (ix2 k (⟨128 + j.val, hq⟩ : Fin 256)) := by
  unfold k1_pay4
  exact (rightCols_apply (k1_pay2 (F := Ideal) a0 p2 s9 c16) p j hq).trans (prod_apply a0 p2 s9 c16 p (⟨128 + j.val, hq⟩ : Fin 256))

variable (V : (c : Dev nD) → (b : Ref sig .tc) → Buf (Elt Ideal) ((c : Thread nD τ).loc b))

/-- The edge weights as the region finds them. -/
abbrev ain (c : Dev nD) : S10000x10000.Idx → EReal := V c main_arg1
/-- The projected features to aggregate. -/
abbrev pin (c : Dev nD) : S10000x256.Idx → EReal := V c main_v11
/-- The projected features of the node itself. -/
abbrev sin (c : Dev nD) : S10000x256.Idx → EReal := V c main_v10_0
/-- The second layer's rearranged weight. -/
abbrev cin (c : Dev nD) : S256x256.Idx → EReal := V c main_v9

/-- The hidden features of node `r`. -/
def hid (c : Dev nD) (r : Fin 10000) : Fin 256 → EReal :=
  RowOps.relu fun k => sin V c (ix2 r k)
    + Ideal.div (∑ l : Fin 10000, ain V c (ix2 r l) * pin V c (ix2 l k)) (deg (N := 10000) (ain V c) r)

/-! ## The blocks of a grid point, read back to the arrays -/

/-- The offsets (0, 0) are the constant zero. -/
theorem origin : (![0, 0] : Fin 2 → Nat) = fun _ => 0 := funext fun a => by fin_cases a <;> rfl

/-- The grid has 25 points. -/
theorem point_lt (t : Fin cfg1.N) : t.val < 25 := lt_of_lt_of_eq t.isLt N_1

/-- Row p of the block of grid point t is node 400·t + p. -/
def node (t : Fin cfg1.N) (p : Fin 400) : Fin 10000 :=
  ⟨400 * t.val + p.val, by have := point_lt t; have := p.isLt; omega⟩

/-- Where each window's block sits at grid point t: the windows cut by rows sit at row block t, column block 0; the
    windows over a whole array at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The block of edge weights at grid point t. -/
abbrev ablk (c : Dev nD) (t : Fin cfg1.N) : FVec Ideal S400x10000 .f32 := iblk1 V c 0 t
/-- The projected features to aggregate, as grid point t has them. -/
abbrev pblk (c : Dev nD) (t : Fin cfg1.N) : FVec Ideal S10000x256 .bf16 := iblk1 V c 1 t
/-- The block of the nodes' own projected features at grid point t. -/
abbrev sblk (c : Dev nD) (t : Fin cfg1.N) : FVec Ideal S400x256 .f32 := iblk1 V c 2 t
/-- The weight, as grid point t has it. -/
abbrev cblk (c : Dev nD) (t : Fin cfg1.N) : FVec Ideal S256x256 .f32 := iblk1 V c 3 t

/-- Row p of the block of edge weights is row 400·t + p of the edge weights. -/
theorem ablk_apply (c : Dev nD) (t : Fin cfg1.N) (p : Fin 400) (l : Fin 10000) :
    ablk V c t (ix2 p l) = ain V c (ix2 (node t p) l) := by
  obtain ⟨e0, e1, -⟩ := block_index t
  show V c main_arg1 (((cfg1.win 0).blk t).view.emb (ix2 p l)) = V c main_arg1 (ix2 (node t p) l)
  refine congrArg (V c main_arg1) (funext fun a => Fin.ext ?_)
  match a with
  | ⟨0, _⟩ => show win1_0.index t (0 : Fin 2) * 400 + 1 * p.val = 400 * t.val + p.val; omega
  | ⟨1, _⟩ => show win1_0.index t (1 : Fin 2) * 10000 + 1 * l.val = l.val; omega

/-- Every grid point has all of the projected features. -/
theorem pblk_apply (c : Dev nD) (t : Fin cfg1.N) (l : Fin 10000) (k : Fin 256) :
    pblk V c t (ix2 l k) = pin V c (ix2 l k) := by
  obtain ⟨-, -, e0, e1, -⟩ := block_index t
  show V c main_v11 (((cfg1.win 1).blk t).view.emb (ix2 l k)) = V c main_v11 (ix2 l k)
  refine congrArg (V c main_v11) (funext fun a => Fin.ext ?_)
  match a with
  | ⟨0, _⟩ => show win1_1.index t (0 : Fin 2) * 10000 + 1 * l.val = l.val; omega
  | ⟨1, _⟩ => show win1_1.index t (1 : Fin 2) * 256 + 1 * k.val = k.val; omega

/-- Row p of the block of own features is row 400·t + p of the own features. -/
theorem sblk_apply (c : Dev nD) (t : Fin cfg1.N) (p : Fin 400) (k : Fin 256) :
    sblk V c t (ix2 p k) = sin V c (ix2 (node t p) k) := by
  obtain ⟨-, -, -, -, e0, e1, -⟩ := block_index t
  show V c main_v10_0 (((cfg1.win 2).blk t).view.emb (ix2 p k)) = V c main_v10_0 (ix2 (node t p) k)
  refine congrArg (V c main_v10_0) (funext fun a => Fin.ext ?_)
  match a with
  | ⟨0, _⟩ => show win1_2.index t (0 : Fin 2) * 400 + 1 * p.val = 400 * t.val + p.val; omega
  | ⟨1, _⟩ => show win1_2.index t (1 : Fin 2) * 256 + 1 * k.val = k.val; omega

/-- Every grid point has the whole weight. -/
theorem cblk_apply (c : Dev nD) (t : Fin cfg1.N) (k q : Fin 256) :
    cblk V c t (ix2 k q) = cin V c (ix2 k q) := by
  obtain ⟨-, -, -, -, -, -, e0, e1, -⟩ := block_index t
  show V c main_v9 (((cfg1.win 3).blk t).view.emb (ix2 k q)) = V c main_v9 (ix2 k q)
  refine congrArg (V c main_v9) (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- The hidden row p of the blocks of grid point t is the hidden row of node 400·t + p. -/
theorem hid_blk (c : Dev nD) (t : Fin cfg1.N) (p : Fin 400) :
    hidB (ablk V c t) (pblk V c t) (sblk V c t) p = hid V c (node t p) := by
  unfold hidB hid
  refine congrArg RowOps.relu (funext fun k => ?_)
  have e1 : (∑ l : Fin 10000, ablk V c t (ix2 p l) * pblk V c t (ix2 l k))
      = ∑ l : Fin 10000, ain V c (ix2 (node t p) l) * pin V c (ix2 l k) :=
    Finset.sum_congr rfl fun l _ => congrArg₂ (· * ·) (ablk_apply V c t p l) (pblk_apply V c t l k)
  have e2 : (∑ l : Fin 10000, ablk V c t (ix2 p l)) = ∑ l : Fin 10000, ain V c (ix2 (node t p) l) :=
    Finset.sum_congr rfl fun l _ => ablk_apply V c t p l
  exact congrArg₂ (· + ·) (sblk_apply V c t p k) (congrArg₂ Ideal.div e1 (congrArg (· + (1 : EReal)) e2))

/-- The weighted degree plus one of row p of the block is that of node 400·t + p. -/
theorem deg_blk (c : Dev nD) (t : Fin cfg1.N) (p : Fin 400) :
    (∑ l : Fin 10000, ablk V c t (ix2 p l)) + 1 = deg (N := 10000) (ain V c) (node t p) :=
  congrArg (· + (1 : EReal)) (Finset.sum_congr rfl fun l _ => ablk_apply V c t p l)

/-! ## The first output array -/

/-- The hidden features times the left half of the weight's columns, node by node. -/
abbrev outS (c : Dev nD) : Arr 10000 128 :=
  toArr (fun (r : Fin 10000) (j : Fin 128) => ∑ k : Fin 256, hid V c r k * cin V c (ix2 k (⟨j.val, by omega⟩ : Fin 256)))

/-- What grid point t writes back to the first output array is its block of `outS`. -/
theorem wroteS (c : Dev nD) (t : Fin cfg1.N) :
    (dat1 (F := Ideal) V c).flushed 4 t = ((cfg1.win 4).blk t).view.read (Elt Ideal) (outS V c) := by
  show (cfg1.win 4).cut (grid1.coords t) ((dat1 V c).after 4 t) = _
  rw [after1_4]
  unfold out1_4
  rw [View.canon_unit_zero origin]
  simp only [View.ld_unit_zero (S := S400x10000) origin, View.ld_unit_zero (S := S10000x256) origin,
    View.ld_unit_zero (S := S400x256) origin, View.ld_unit_zero (S := S256x256) origin]
  obtain ⟨-, -, -, -, -, -, -, -, e0, e1, -⟩ := block_index t
  funext j
  obtain ⟨p, q, rfl⟩ : ∃ (p : Fin 400) (q : Fin 128), j = ix2 p q := ⟨j 0, j 1, eq_ix2 j⟩
  have hq : q.val < 256 := by have := q.isLt; omega
  have hemb : ((cfg1.win 4).blk t).view.emb (ix2 p q) = ix2 (node t p) q := funext fun a => Fin.ext (by
    match a with
    | ⟨0, _⟩ => show win1_4.index t (0 : Fin 2) * 400 + 1 * p.val = 400 * t.val + p.val; omega
    | ⟨1, _⟩ => show win1_4.index t (1 : Fin 2) * 128 + 1 * q.val = q.val; omega)
  show k1_pay3 (F := Ideal) (ablk V c t) (pblk V c t) (sblk V c t) (cblk V c t) (ix2 p q)
      = outS V c (((cfg1.win 4).blk t).view.emb (ix2 p q))
  refine (left_apply (ablk V c t) (pblk V c t) (sblk V c t) (cblk V c t) p q hq).trans ?_
  refine Eq.trans ?_ (congrArg (outS V c) hemb).symm
  show _ = ∑ k : Fin 256, hid V c (node t p) k * cin V c (ix2 k (⟨q.val, hq⟩ : Fin 256))
  exact Finset.sum_congr rfl fun k _ =>
    congrArg₂ (· * ·) (congrFun (hid_blk V c t p) k) (cblk_apply V c t k (⟨q.val, hq⟩ : Fin 256))

/-- An index of the first output array is in grid point t's block iff each coordinate is in the block's range. -/
theorem mem_blkS (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v12_0).slice (win1_4.rect t)).set ↔ _
  rw [View.set_slice_whole, Rect.mem_set_unit]
  exact Iff.rfl

/-- Every index of the first output array is in the block of the grid point of its row's block of 400. -/
theorem coverS (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : grid1.N = 25 := N_1
  obtain ⟨t, ht⟩ : ∃ t : Fin cfg1.N, t.val = (i 0).val / 400 :=
    ⟨⟨(i 0).val / 400, by show (i 0).val / 400 < grid1.N; omega⟩, rfl⟩
  obtain ⟨-, -, -, -, -, -, -, -, e0, e1, -⟩ := block_index t
  refine ⟨t, flush1_4 t, ?_⟩
  rw [mem_blkS]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 128 ≤ (i 1).val ∧ (i 1).val < win1_4.index t (1 : Fin 2) * 128 + 128
    omega

/-- The first output array: the hidden features times the left half of the weight's columns. -/
theorem final_s (c : Dev nD) :
    (dat1 (F := Ideal) V c).arrAt 4 cfg1.N
      = toArr (fun (r : Fin 10000) (j : Fin 128) => ∑ k : Fin 256, hid V c r k * cin V c (ix2 k (⟨j.val, by omega⟩ : Fin 256))) :=
  (dat1 (F := Ideal) V c).arrAt_eq_of_cover 4 (outS V c) (fun t _ => wroteS V c t) coverS

/-! ## The second output array -/

/-- The hidden features times the right half of the weight's columns, node by node. -/
abbrev outP (c : Dev nD) : Arr 10000 128 :=
  toArr (fun (r : Fin 10000) (j : Fin 128) => ∑ k : Fin 256, hid V c r k * cin V c (ix2 k (⟨128 + j.val, by omega⟩ : Fin 256)))

/-- What grid point t writes back to the second output array is its block of `outP`. -/
theorem wroteP (c : Dev nD) (t : Fin cfg1.N) :
    (dat1 (F := Ideal) V c).flushed 5 t = ((cfg1.win 5).blk t).view.read (Elt Ideal) (outP V c) := by
  show (cfg1.win 5).cut (grid1.coords t) ((dat1 V c).after 5 t) = _
  rw [after1_5]
  unfold out1_5
  rw [View.canon_unit_zero origin]
  simp only [View.ld_unit_zero (S := S400x10000) origin, View.ld_unit_zero (S := S10000x256) origin,
    View.ld_unit_zero (S := S400x256) origin, View.ld_unit_zero (S := S256x256) origin]
  obtain ⟨-, -, -, -, -, -, -, -, -, -, e0, e1, -⟩ := block_index t
  funext j
  obtain ⟨p, q, rfl⟩ : ∃ (p : Fin 400) (q : Fin 128), j = ix2 p q := ⟨j 0, j 1, eq_ix2 j⟩
  have hq : 128 + q.val < 256 := by have := q.isLt; omega
  have hemb : ((cfg1.win 5).blk t).view.emb (ix2 p q) = ix2 (node t p) q := funext fun a => Fin.ext (by
    match a with
    | ⟨0, _⟩ => show win1_5.index t (0 : Fin 2) * 400 + 1 * p.val = 400 * t.val + p.val; omega
    | ⟨1, _⟩ => show win1_5.index t (1 : Fin 2) * 128 + 1 * q.val = q.val; omega)
  show k1_pay4 (F := Ideal) (ablk V c t) (pblk V c t) (sblk V c t) (cblk V c t) (ix2 p q)
      = outP V c (((cfg1.win 5).blk t).view.emb (ix2 p q))
  refine (right_apply (ablk V c t) (pblk V c t) (sblk V c t) (cblk V c t) p q hq).trans ?_
  refine Eq.trans ?_ (congrArg (outP V c) hemb).symm
  show _ = ∑ k : Fin 256, hid V c (node t p) k * cin V c (ix2 k (⟨128 + q.val, hq⟩ : Fin 256))
  exact Finset.sum_congr rfl fun k _ =>
    congrArg₂ (· * ·) (congrFun (hid_blk V c t p) k) (cblk_apply V c t k (⟨128 + q.val, hq⟩ : Fin 256))

/-- An index of the second output array is in grid point t's block iff each coordinate is in the block's range. -/
theorem mem_blkP (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_v12_1).slice (win1_5.rect t)).set ↔ _
  rw [View.set_slice_whole, Rect.mem_set_unit]
  exact Iff.rfl

/-- Every index of the second output array is in the block of the grid point of its row's block of 400. -/
theorem coverP (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : grid1.N = 25 := N_1
  obtain ⟨t, ht⟩ : ∃ t : Fin cfg1.N, t.val = (i 0).val / 400 :=
    ⟨⟨(i 0).val / 400, by show (i 0).val / 400 < grid1.N; omega⟩, rfl⟩
  obtain ⟨-, -, -, -, -, -, -, -, -, -, e0, e1, -⟩ := block_index t
  refine ⟨t, flush1_5 t, ?_⟩
  rw [mem_blkP]
  intro a
  match a with
  | ⟨0, _⟩ =>
    show win1_5.index t (0 : Fin 2) * 400 ≤ (i 0).val ∧ (i 0).val < win1_5.index t (0 : Fin 2) * 400 + 400
    omega
  | ⟨1, _⟩ =>
    show win1_5.index t (1 : Fin 2) * 128 ≤ (i 1).val ∧ (i 1).val < win1_5.index t (1 : Fin 2) * 128 + 128
    omega

/-- The second output array: the hidden features times the right half of the weight's columns. -/
theorem final_p (c : Dev nD) :
    (dat1 (F := Ideal) V c).arrAt 5 cfg1.N
      = toArr (fun (r : Fin 10000) (j : Fin 128) => ∑ k : Fin 256, hid V c r k * cin V c (ix2 k (⟨128 + j.val, by omega⟩ : Fin 256))) :=
  (dat1 (F := Ideal) V c).arrAt_eq_of_cover 5 (outP V c) (fun t _ => wroteP V c t) coverP

/-! ## The third output array -/

/-- Every node's weighted degree plus one, as one column. -/
abbrev outD (c : Dev nD) : Arr 10000 1 :=
  toArr (fun (r : Fin 10000) (_ : Fin 1) => deg (N := 10000) (ain V c) r)

/-- What grid point t writes back to the third output array is its block of `outD`. -/
theorem wroteD (c : Dev nD) (t : Fin cfg1.N) :
    (dat1 (F := Ideal) V c).flushed 6 t = ((cfg1.win 6).blk t).view.read (Elt Ideal) (outD V c) := by
  show (cfg1.win 6).cut (grid1.coords t) ((dat1 V c).after 6 t) = _
  rw [after1_6]
  unfold out1_6
  rw [View.canon_unit_zero origin]
  simp only [View.ld_unit_zero (S := S400x10000) origin]
  obtain ⟨-, -, -, -, -, -, -, -, -, -, -, -, e0, e1⟩ := block_index t
  funext j
  obtain ⟨p, q, rfl⟩ : ∃ (p : Fin 400) (q : Fin 1), j = ix2 p q := ⟨j 0, j 1, eq_ix2 j⟩
  obtain rfl : q = 0 := Fin.eq_zero q
  have hemb : ((cfg1.win 6).blk t).view.emb (ix2 p (0 : Fin 1)) = ix2 (node t p) (0 : Fin 1) :=
    funext fun a => Fin.ext (by
      match a with
      | ⟨0, _⟩ => show win1_6.index t (0 : Fin 2) * 400 + 1 * p.val = 400 * t.val + p.val; omega
      | ⟨1, _⟩ => show win1_6.index t (1 : Fin 2) * 1 + 1 * 0 = 0; omega)
  show k1_pay1 (F := Ideal) (ablk V c t) (ix2 p (0 : Fin 1))
      = outD V c (((cfg1.win 6).blk t).view.emb (ix2 p (0 : Fin 1)))
  refine (degcol_apply (ablk V c t) p).trans ?_
  refine Eq.trans ?_ (congrArg (outD V c) hemb).symm
  exact deg_blk V c t p

/-- An index of the third output array is in grid point t's block iff each coordinate is in the block's range. -/
theorem mem_blkD (t : Fin cfg1.N) (i : S10000x1.Idx) :
    i ∈ ((cfg1.win 6).blk t).view.set ↔ ∀ a : Fin 2, win1_6.index t a * S400x1.size a ≤ (i a).val
      ∧ (i a).val < win1_6.index t a * S400x1.size a + S400x1.size a := by
  show i ∈ ((View.whole main_v12_2).slice (win1_6.rect t)).set ↔ _
  rw [View.set_slice_whole, Rect.mem_set_unit]
  exact Iff.rfl

/-- Every index of the third output array is in the block of the grid point of its row's block of 400. -/
theorem coverD (i : S10000x1.Idx) :
    ∃ t : Fin cfg1.N, (cfg1.win 6).flush t = true ∧ i ∈ ((cfg1.win 6).blk t).view.set := by
  have hi0 : (i 0).val < 10000 := (i 0).isLt
  have hi1 : (i 1).val < 1 := (i 1).isLt
  have hN : grid1.N = 25 := N_1
  obtain ⟨t, ht⟩ : ∃ t : Fin cfg1.N, t.val = (i 0).val / 400 :=
    ⟨⟨(i 0).val / 400, by show (i 0).val / 400 < grid1.N; omega⟩, rfl⟩
  obtain ⟨-, -, -, -, -, -, -, -, -, -, -, -, e0, e1⟩ := block_index t
  refine ⟨t, flush1_6 t, ?_⟩
  rw [mem_blkD]
  intro a
  match a with
  | ⟨0, _⟩ =>
    show win1_6.index t (0 : Fin 2) * 400 ≤ (i 0).val ∧ (i 0).val < win1_6.index t (0 : Fin 2) * 400 + 400
    omega
  | ⟨1, _⟩ =>
    show win1_6.index t (1 : Fin 2) * 1 ≤ (i 1).val ∧ (i 1).val < win1_6.index t (1 : Fin 2) * 1 + 1
    omega

/-- The third output array: every node's weighted degree plus one, as one column. -/
theorem final_d (c : Dev nD) :
    (dat1 (F := Ideal) V c).arrAt 6 cfg1.N
      = toArr (fun (r : Fin 10000) (_ : Fin 1) => deg (N := 10000) (ain V c) r) :=
  (dat1 (F := Ideal) V c).arrAt_eq_of_cover 6 (outD V c) (fun t _ => wroteD V c t) coverD

end Sage.K1

end
-- ==== Proof.K2.lean ====
/-
  The second aggregation region: for every block of 400 nodes,  relu (s + (A·p) / d)  with the degrees
  read from an array.  Stated for whatever the arrays `A`, `p`, `s`, `d` hold when the region is entered.
-/
import proofs.«178860_g29755533426829_cont_9to1_2196_2_alg».proof.Proof.Gen.KernelIdeal.Frame
import proofs.«178860_g29755533426829_cont_9to1_2196_2_alg».proof.Proof.Spec
import Idealize.ShloMosaic.Lib.Pipeline.Value
import Idealize.ShloMosaic.Lib.ValueLayout

set_option maxRecDepth 16384

noncomputable section

open scoped BigOperators

namespace Sage.K2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The edge weights as the region finds them. -/
abbrev ain (c : Dev nD) : S10000x10000.Idx → EReal := V c main_arg1
/-- The projected features to aggregate. -/
abbrev pin (c : Dev nD) : S10000x128.Idx → EReal := V c main_v13
/-- The projected features of the node itself. -/
abbrev sin (c : Dev nD) : S10000x128.Idx → EReal := V c main_v12_0
/-- The degrees plus one, one column. -/
abbrev din (c : Dev nD) : S10000x1.Idx → EReal := V c main_v12_2

/-- One entry of the block the body stores: the node's own row plus the aggregated row over the degree, positive part. -/
theorem pay_apply (x0 : Vec Ideal S400x10000 .f32) (x1 : Vec Ideal S10000x128 .bf16) (x2 : Vec Ideal S400x128 .f32)
    (x3 : Vec Ideal S400x1 .f32) (p : Fin 400) (q : Fin 128) :
    k2_pay1 (F := Ideal) x0 x1 x2 x3 (ix2 p q)
      = RowOps.relu (fun j : Fin 128 => x2 (ix2 p j)
          + Ideal.div (∑ l : Fin 10000, x0 (ix2 p l) * x1 (ix2 l j)) (x3 (ix2 p (0 : Fin 1)))) q := by
  unfold k2_pay1
  refine (RowOps.relu_kernel_apply _ p q).trans ?_
  refine congrArg (fun f => RowOps.relu f q) (funext fun j => ?_)
  show shapeCast S400x128 x2 shapeCasts_S400x128_S400x128 (ix2 p j)
      + Ideal.div (matmul (F := Ideal) dot_S400x10000_S10000x128_S400x128_1_0_0_1_n_n none (truncf (F := Ideal) .bf16 x0 bitsLt_bf16_f32)
            (shapeCast S10000x128 x1 shapeCasts_S10000x128_S10000x128) (constant (F := Ideal) S400x128 .f32 0x00000000#32) (ix2 p j))
          (broadcastTo S400x128 (shapeCast S400x1 x3 shapeCasts_S400x1_S400x1) broadcasts_S400x1_S400x128 (ix2 p j)) = _
  rw [shapeCast_self, shapeCast_self, shapeCast_self,
    RowOps.matmul_plain_apply dot_S400x10000_S10000x128_S400x128_1_0_0_1_n_n rfl,
    RowOps.broadcastTo_a1_ab_apply]
  rfl

/-- Row `p` of the block of point `t` is node `400 t + p`. -/
def node (t : Fin cfg2.N) (p : Fin 400) : Fin 10000 :=
  ⟨400 * t.val + p.val, by have ht := t.isLt; have hp := p.isLt; have hN : cfg2.N = 25 := N_2; omega⟩

/-- Where each window's block sits at point `t`: the row-blocks of `A`, `s`, `d` and of the output at block row `t`,
    the features `p` whole. -/
theorem blockIdx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The block of the edge weights the body loads at point `t`. -/
abbrev ablock (c : Dev nD) (t : Fin cfg2.N) : Vec Ideal S400x10000 .f32 := iblk2 V c 0 t
/-- The features `p` the body loads at point `t`. -/
abbrev pblock (c : Dev nD) (t : Fin cfg2.N) : Vec Ideal S10000x128 .bf16 := iblk2 V c 1 t
/-- The block of the nodes' own projected rows the body loads at point `t`. -/
abbrev sblock (c : Dev nD) (t : Fin cfg2.N) : Vec Ideal S400x128 .f32 := iblk2 V c 2 t
/-- The block of the degrees the body loads at point `t`. -/
abbrev dblock (c : Dev nD) (t : Fin cfg2.N) : Vec Ideal S400x1 .f32 := iblk2 V c 3 t

/-- The block of `A` at point `t`: its row `p` is row `400 t + p` of the array, every column. -/
theorem ablock_apply (c : Dev nD) (t : Fin cfg2.N) (p : Fin 400) (k : Fin 10000) :
    ablock V c t (ix2 p k) = ain V c (ix2 (node t p) k) := by
  obtain ⟨e0, e1, -⟩ := blockIdx t
  show V c main_arg1 (((cfg2.win 0).blk t).view.emb (ix2 p k)) = _
  refine congrArg (V c main_arg1) (funext fun a => Fin.ext ?_)
  match a with
  | ⟨0, _⟩ => show win2_0.index t (0 : Fin 2) * 400 + 1 * p.val = 400 * t.val + p.val; omega
  | ⟨1, _⟩ => show win2_0.index t (1 : Fin 2) * 10000 + 1 * k.val = k.val; omega

/-- The features `p` come whole at every point. -/
theorem pblock_apply (c : Dev nD) (t : Fin cfg2.N) (l : Fin 10000) (j : Fin 128) :
    pblock V c t (ix2 l j) = pin V c (ix2 l j) := by
  obtain ⟨-, -, e0, e1, -⟩ := blockIdx t
  show V c main_v13 (((cfg2.win 1).blk t).view.emb (ix2 l j)) = _
  refine congrArg (V c main_v13) (funext fun a => Fin.ext ?_)
  match a with
  | ⟨0, _⟩ => show win2_1.index t (0 : Fin 2) * 10000 + 1 * l.val = l.val; omega
  | ⟨1, _⟩ => show win2_1.index t (1 : Fin 2) * 128 + 1 * j.val = j.val; omega

/-- The block of `s` at point `t`: its row `p` is row `400 t + p` of the array. -/
theorem sblock_apply (c : Dev nD) (t : Fin cfg2.N) (p : Fin 400) (j : Fin 128) :
    sblock V c t (ix2 p j) = sin V c (ix2 (node t p) j) := by
  obtain ⟨-, -, -, -, e0, e1, -⟩ := blockIdx t
  show V c main_v12_0 (((cfg2.win 2).blk t).view.emb (ix2 p j)) = _
  refine congrArg (V c main_v12_0) (funext fun a => Fin.ext ?_)
  match a with
  | ⟨0, _⟩ => show win2_2.index t (0 : Fin 2) * 400 + 1 * p.val = 400 * t.val + p.val; omega
  | ⟨1, _⟩ => show win2_2.index t (1 : Fin 2) * 128 + 1 * j.val = j.val; omega

/-- The block of the degrees at point `t`: its row `p` is row `400 t + p` of the one column. -/
theorem dblock_apply (c : Dev nD) (t : Fin cfg2.N) (p : Fin 400) :
    dblock V c t (ix2 p (0 : Fin 1)) = din V c (ix2 (node t p) (0 : Fin 1)) := by
  obtain ⟨-, -, -, -, -, -, e0, e1, -⟩ := blockIdx t
  show V c main_v12_2 (((cfg2.win 3).blk t).view.emb (ix2 p (0 : Fin 1))) = _
  refine congrArg (V c main_v12_2) (funext fun a => Fin.ext ?_)
  match a with
  | ⟨0, _⟩ => show win2_3.index t (0 : Fin 2) * 400 + 1 * p.val = 400 * t.val + p.val; omega
  | ⟨1, _⟩ => show win2_3.index t (1 : Fin 2) * 1 + 1 * 0 = 0; omega

/-- The output array as one function of the entry arrays: for node `r`, the node's own projected row plus its
    neighbours' aggregated row over the degree, positive part. -/
abbrev outArr (c : Dev nD) : Arr 10000 128 :=
  toArr (fun (r : Fin 10000) => RowOps.relu fun (j : Fin 128) => sin V c (ix2 r j)
    + Ideal.div (∑ l : Fin 10000, ain V c (ix2 r l) * pin V c (ix2 l j)) (din V c (ix2 r (0 : Fin 1))))

/-- The body's loads and its store start at the origin of their buffers. -/
theorem origin : (![0, 0] : Fin 2 → Nat) = fun _ => 0 := funext fun a => by fin_cases a <;> rfl

/-- What point `t` writes back is block `t` of `outArr`: rows `400 t … 400 t + 399`, every column. -/
theorem wrote (c : Dev nD) (t : Fin cfg2.N) :
    (dat2 (F := Ideal) V c).flushed 4 t = ((cfg2.win 4).blk t).view.read (Elt Ideal) (outArr V c) := by
  show (cfg2.win 4).cut (grid2.coords t) ((dat2 (F := Ideal) V c).after 4 t) = _
  rw [after2_4]
  unfold out2_4
  rw [View.canon_unit_zero origin]
  simp only [View.ld_unit_zero (S := S400x10000) origin, View.ld_unit_zero (S := S10000x128) origin,
    View.ld_unit_zero (S := S400x128) origin, View.ld_unit_zero (S := S400x1) origin]
  funext y
  obtain ⟨p, q, rfl⟩ : ∃ (p : Fin 400) (q : Fin 128), y = ix2 p q := ⟨y 0, y 1, eq_ix2 y⟩
  show k2_pay1 (F := Ideal) (ablock V c t) (pblock V c t) (sblock V c t) (dblock V c t) (ix2 p q)
      = outArr V c (((cfg2.win 4).blk t).view.emb (ix2 p q))
  refine (pay_apply (ablock V c t) (pblock V c t) (sblock V c t) (dblock V c t) p q).trans ?_
  have hplace : ((cfg2.win 4).blk t).view.emb (ix2 p q) = ix2 (node t p) q := by
    obtain ⟨-, -, -, -, -, -, -, -, e0, e1⟩ := blockIdx t
    refine funext fun a => Fin.ext ?_
    match a with
    | ⟨0, _⟩ => show win2_4.index t (0 : Fin 2) * 400 + 1 * p.val = 400 * t.val + p.val; omega
    | ⟨1, _⟩ => show win2_4.index t (1 : Fin 2) * 128 + 1 * q.val = q.val; omega
  refine Eq.trans ?_ (congrArg (outArr V c) hplace).symm
  show RowOps.relu _ q
      = RowOps.relu (fun j : Fin 128 => sin V c (ix2 (node t p) j)
        + Ideal.div (∑ l : Fin 10000, ain V c (ix2 (node t p) l) * pin V c (ix2 l j)) (din V c (ix2 (node t p) (0 : Fin 1)))) q
  refine congrArg (fun f => RowOps.relu f q) (funext fun j => ?_)
  rw [sblock_apply V c t p j, dblock_apply V c t p]
  refine congrArg (fun s => sin V c (ix2 (node t p) j) + Ideal.div s (din V c (ix2 (node t p) (0 : Fin 1)))) ?_
  exact Finset.sum_congr rfl fun l _ => by rw [ablock_apply V c t p l, pblock_apply V c t l j]

/-- An index of the output array lies in point `t`'s block iff each coordinate lies in the block's range on its axis. -/
theorem mem_oblock (t : Fin cfg2.N) (i : S10000x128.Idx) :
    i ∈ ((cfg2.win 4).blk t).view.set
      ↔ ∀ a : Fin 2, win2_4.index t a * S400x128.size a ≤ (i a).val
          ∧ (i a).val < win2_4.index t a * S400x128.size a + S400x128.size a := by
  show i ∈ ((View.whole main_v14).slice (win2_4.rect t)).set ↔ _
  rw [View.set_slice_whole, Rect.mem_set_unit]
  exact Iff.rfl

/-- Every entry of the output array is written: row `r` by the point `r / 400`. -/
theorem covered (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : cfg2.N = 25 := N_2
  obtain ⟨t, ht⟩ : ∃ t : Fin cfg2.N, t.val = (i 0).val / 400 := ⟨⟨(i 0).val / 400, by omega⟩, rfl⟩
  obtain ⟨-, -, -, -, -, -, -, -, e0, e1⟩ := blockIdx t
  refine ⟨t, flush2_4 t, ?_⟩
  rw [mem_oblock]
  intro a
  match a with
  | ⟨0, _⟩ =>
    show win2_4.index t (0 : Fin 2) * 400 ≤ (i 0).val ∧ (i 0).val < win2_4.index t (0 : Fin 2) * 400 + 400
    omega
  | ⟨1, _⟩ =>
    show win2_4.index t (1 : Fin 2) * 128 ≤ (i 1).val ∧ (i 1).val < win2_4.index t (1 : Fin 2) * 128 + 128
    omega

/-- The output array after the run. -/
theorem final_o (c : Dev nD) :
    (dat2 (F := Ideal) V c).arrAt 4 cfg2.N
      = toArr (fun (r : Fin 10000) => RowOps.relu fun (j : Fin 128) => sin V c (ix2 r j)
          + Ideal.div (∑ l : Fin 10000, ain V c (ix2 r l) * pin V c (ix2 l j)) (din V c (ix2 r (0 : Fin 1)))) :=
  (dat2 (F := Ideal) V c).arrAt_eq_of_cover 4 (outArr V c) (fun t _ => wrote V c t) covered

end Sage.K2

end
-- ==== Proof.Rearr.lean ====
/-
  The rearranged weight `[Wlᵀ | Wrᵀ]`, read at an entry.

  From `W = [Wl | Wr]` (`O` rows, `D + D` columns) the program slices the two halves of the columns,
  transposes each to `D × O` and lays the results side by side.  Entry `(k, j)` of the result, `j < O`, is
  `W (j, k)`; entry `(k, O + j)` is `W (j, D + k)`.
-/
import proofs.«178860_g29755533426829_cont_9to1_2196_2_alg».proof.Proof.Spec
import Idealize.ShloMosaic.Lib.Pipeline.Value

noncomputable section

open scoped BigOperators

namespace Sage

open Idealize.ShloMosaic Idealize.ShloMosaic.ValueIdx

variable {O D C CO : ℕ}

/-- A transposed column slice of `W`, at `(k, j)`: `W (j, off + k)`. -/
theorem transpose_slice_apply (W : Arr O C) (off : ℕ) (hoff : off + D ≤ C)
    (hs : (⟨2, ![O, C]⟩ : Shape).Slices ![0, off] ⟨2, ![O, D]⟩)
    (ht : (⟨2, ![O, D]⟩ : Shape).Transposes [1, 0] ⟨2, ![D, O]⟩) (k : Fin D) (j : Fin O) :
    transpose ⟨2, ![D, O]⟩ [1, 0] (extractStridedSlice ⟨2, ![O, D]⟩ ![0, off] W hs) ht (ix2 k j)
      = W (ix2 j (⟨off + k.val, by have := k.isLt; omega⟩ : Fin C)) := by
  rw [transpose_apply [1, 0] _ ht (ix2 k j) (ix2 j k) (fun b => by
    match b with
    | ⟨0, _⟩ => rfl
    | ⟨1, _⟩ => rfl)]
  exact extractStridedSlice_apply ![0, off] W hs (ix2 j k) (ix2 j (⟨off + k.val, by have := k.isLt; omega⟩ : Fin C)) (fun a => by
    match a with
    | ⟨0, _⟩ => exact (Nat.zero_add _).symm
    | ⟨1, _⟩ => rfl)

/-- The left half of the rearranged weight. -/
theorem rearr_left (hC : C = D + D) (hCO : CO = O + O) (W : Arr O C)
    (hs0 : (⟨2, ![O, C]⟩ : Shape).Slices ![0, 0] ⟨2, ![O, D]⟩)
    (hs1 : (⟨2, ![O, C]⟩ : Shape).Slices ![0, D] ⟨2, ![O, D]⟩)
    (ht : (⟨2, ![O, D]⟩ : Shape).Transposes [1, 0] ⟨2, ![D, O]⟩)
    (hc : Shape.Concatenates [(⟨2, ![D, O]⟩ : Shape), ⟨2, ![D, O]⟩] ⟨2, ![D, CO]⟩ 1)
    (k : Fin D) (j : Fin O) :
    concatenate ⟨2, ![D, CO]⟩ 1
        [⟨⟨2, ![D, O]⟩, transpose ⟨2, ![D, O]⟩ [1, 0] (extractStridedSlice ⟨2, ![O, D]⟩ ![0, 0] W hs0) ht⟩,
         ⟨⟨2, ![D, O]⟩, transpose ⟨2, ![D, O]⟩ [1, 0] (extractStridedSlice ⟨2, ![O, D]⟩ ![0, D] W hs1) ht⟩] hc
        (ix2 k (⟨j.val, by have := j.isLt; omega⟩ : Fin CO))
      = wl hC W j k := by
  rw [RowOps.cat2_apply _ _ hc hCO]
  unfold RowOps.cat2
  rw [dif_pos (show ((⟨j.val, by have := j.isLt; omega⟩ : Fin CO)).val < O from j.isLt)]
  refine (transpose_slice_apply W 0 (by omega) hs0 ht k _).trans ?_
  unfold wl
  exact congrArg W (congrArg (ix2 j) (Fin.ext (Nat.zero_add _)))

/-- The right half of the rearranged weight. -/
theorem rearr_right (hC : C = D + D) (hCO : CO = O + O) (W : Arr O C)
    (hs0 : (⟨2, ![O, C]⟩ : Shape).Slices ![0, 0] ⟨2, ![O, D]⟩)
    (hs1 : (⟨2, ![O, C]⟩ : Shape).Slices ![0, D] ⟨2, ![O, D]⟩)
    (ht : (⟨2, ![O, D]⟩ : Shape).Transposes [1, 0] ⟨2, ![D, O]⟩)
    (hc : Shape.Concatenates [(⟨2, ![D, O]⟩ : Shape), ⟨2, ![D, O]⟩] ⟨2, ![D, CO]⟩ 1)
    (k : Fin D) (j : Fin O) :
    concatenate ⟨2, ![D, CO]⟩ 1
        [⟨⟨2, ![D, O]⟩, transpose ⟨2, ![D, O]⟩ [1, 0] (extractStridedSlice ⟨2, ![O, D]⟩ ![0, 0] W hs0) ht⟩,
         ⟨⟨2, ![D, O]⟩, transpose ⟨2, ![D, O]⟩ [1, 0] (extractStridedSlice ⟨2, ![O, D]⟩ ![0, D] W hs1) ht⟩] hc
        (ix2 k (⟨O + j.val, by have := j.isLt; omega⟩ : Fin CO))
      = wr hC W j k := by
  rw [RowOps.cat2_apply _ _ hc hCO]
  unfold RowOps.cat2
  have hlt : ¬ ((⟨O + j.val, by have := j.isLt; omega⟩ : Fin CO)).val < O := by show ¬ O + j.val < O; omega
  have h2 : ((⟨O + j.val, by have := j.isLt; omega⟩ : Fin CO)).val - O < O := by show O + j.val - O < O; have := j.isLt; omega
  rw [dif_neg hlt, dif_pos h2]
  refine (transpose_slice_apply W D (by omega) hs1 ht k _).trans ?_
  unfold wr
  refine congrArg W (funext fun a => ?_)
  match a with
  | ⟨0, _⟩ => exact Fin.ext (by show O + j.val - O = j.val; omega)
  | ⟨1, _⟩ => rfl

end Sage

end
-- ==== Proof.KChain.lean ====
/-
  The kernel program's result, entry by entry: the three regions and the host steps between them, composed.
-/
import proofs.«178860_g29755533426829_cont_9to1_2196_2_alg».proof.Proof.Gen.KernelIdeal.Frame
import proofs.«178860_g29755533426829_cont_9to1_2196_2_alg».proof.Proof.Spec
import proofs.«178860_g29755533426829_cont_9to1_2196_2_alg».proof.Proof.K0
import proofs.«178860_g29755533426829_cont_9to1_2196_2_alg».proof.Proof.K1
import proofs.«178860_g29755533426829_cont_9to1_2196_2_alg».proof.Proof.K2
import Idealize.ShloMosaic.Lib.Pipeline.Value
import Idealize.ShloMosaic.Lib.StableHlo.Run
import proofs.«178860_g29755533426829_cont_9to1_2196_2_alg».proof.Proof.Rearr

set_option maxRecDepth 16384

noncomputable section

open scoped BigOperators

namespace Sage.Chain

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ) (ρ : Dev nD → PrngReg)

/-- The features, the edge weights and the two weight matrices as launched. -/
abbrev X (c : Dev nD) : S10000x256.Idx → EReal := m ((c : Thread nD τ).loc main_arg0)
abbrev A (c : Dev nD) : S10000x10000.Idx → EReal := m ((c : Thread nD τ).loc main_arg1)
abbrev Wa (c : Dev nD) : S256x512.Idx → EReal := m ((c : Thread nD τ).loc main_arg2)
abbrev Wb (c : Dev nD) : S128x512.Idx → EReal := m ((c : Thread nD τ).loc main_arg3)

/-! ## Region 0's entry contents -/

theorem V1_arg0 (c : Dev nD) : (V1 m ρ c main_arg0 : S10000x256.Idx → EReal) = X m c := by
  show StableHlo.after hostOps0 (W0 m ρ c) (Proc.devRef .tc main_arg0) = _
  dsimp only [hostOps0]
  after_results

/-- The first layer's rearranged weight: the transposed left half beside the transposed right half. -/
theorem V1_v4 (c : Dev nD) : (V1 m ρ c main_v4 : S256x512.Idx → EReal)
    = concatenate S256x512 1 [⟨S256x256, transpose S256x256 [1, 0] (extractStridedSlice S256x256 ![0, 0] (Wa m c) slices_S256x512_S256x256_0_0) transposes_S256x256_S256x256_1_0⟩,
        ⟨S256x256, transpose S256x256 [1, 0] (extractStridedSlice S256x256 ![0, 256] (Wa m c) slices_S256x512_S256x256_0_256) transposes_S256x256_S256x256_1_0⟩] concatenates_S256x256_S256x256_S256x512_d1 := by
  show StableHlo.after hostOps0 (W0 m ρ c) (Proc.devRef .tc main_v4) = _
  dsimp only [hostOps0]
  after_results

/-- The second layer's rearranged weight. -/
theorem V1_v9 (c : Dev nD) : (V1 m ρ c main_v9 : S256x256.Idx → EReal)
    = concatenate S256x256 1 [⟨S256x128, transpose S256x128 [1, 0] (extractStridedSlice S128x256 ![0, 0] (Wb m c) slices_S128x512_S128x256_0_0) transposes_S128x256_S256x128_1_0⟩,
        ⟨S256x128, transpose S256x128 [1, 0] (extractStridedSlice S128x256 ![0, 256] (Wb m c) slices_S128x512_S128x256_0_256) transposes_S128x256_S256x128_1_0⟩] concatenates_S256x128_S256x128_S256x256_d1 := by
  show StableHlo.after hostOps0 (W0 m ρ c) (Proc.devRef .tc main_v9) = _
  dsimp only [hostOps0]
  after_results

/-- The features by row and column. -/
def X' (c : Dev nD) : Fin 10000 → Fin 256 → EReal := fun r k => X m c (ix2 r k)

theorem cin0_left (c : Dev nD) (k : Fin 256) (j : Fin 256) :
    K0.cin (V1 m ρ) c (ix2 k (⟨j.val, by omega⟩ : Fin 512)) = wl (C := 512) (D := 256) rfl (Wa m c) j k := by
  show (V1 m ρ c main_v4 : S256x512.Idx → EReal) (ix2 k _) = _
  rw [V1_v4]
  exact rearr_left rfl rfl (Wa m c) _ _ _ _ k j

theorem cin0_right (c : Dev nD) (k : Fin 256) (j : Fin 256) :
    K0.cin (V1 m ρ) c (ix2 k (⟨256 + j.val, by omega⟩ : Fin 512)) = wr (C := 512) (D := 256) rfl (Wa m c) j k := by
  show (V1 m ρ c main_v4 : S256x512.Idx → EReal) (ix2 k _) = _
  rw [V1_v4]
  exact rearr_right rfl rfl (Wa m c) _ _ _ _ k j

/-! ## Region 0's results: the two projections of the features -/

def S1 (c : Dev nD) : Arr 10000 256 := toArr fun r j => ∑ k : Fin 256, X' m c r k * wl (C := 512) (D := 256) rfl (Wa m c) j k
def P1 (c : Dev nD) : Arr 10000 256 := toArr fun r j => ∑ k : Fin 256, X' m c r k * wr (C := 512) (D := 256) rfl (Wa m c) j k

theorem R0_s (c : Dev nD) : (dat0 (F := Ideal) (V1 m ρ) c).arrAt 2 cfg0.N = S1 m c := by
  refine (K0.final_s (V1 m ρ) c).trans ?_
  refine congrArg toArr (funext fun r => funext fun j => Finset.sum_congr rfl fun k _ => ?_)
  rw [cin0_left m ρ c k j]
  have hx : K0.xin (V1 m ρ) c = X m c := V1_arg0 m ρ c
  rw [hx]
  rfl

theorem R0_p (c : Dev nD) : (dat0 (F := Ideal) (V1 m ρ) c).arrAt 3 cfg0.N = P1 m c := by
  refine (K0.final_p (V1 m ρ) c).trans ?_
  refine congrArg toArr (funext fun r => funext fun j => Finset.sum_congr rfl fun k _ => ?_)
  rw [cin0_right m ρ c k j]
  have hx : K0.xin (V1 m ρ) c = X m c := V1_arg0 m ρ c
  rw [hx]
  rfl

/-! ## Region 1's entry contents -/

theorem W1_arg1 (c : Dev nD) : (W1 m ρ c (Proc.devRef .tc main_arg1) : S10000x10000.Idx → EReal) = A m c := by
  show StableHlo.after hostOps0 (W0 m ρ c) (Proc.devRef .tc main_arg1) = _
  dsimp only [hostOps0]
  after_results

theorem V3_arg1 (c : Dev nD) : (V3 m ρ c main_arg1 : S10000x10000.Idx → EReal) = A m c := by
  show StableHlo.after hostOps1 (W2 m ρ c) (Proc.devRef .tc main_arg1) = _
  dsimp only [hostOps1]
  after_results
  exact (W2_of_ne m ρ c main_arg1 (by decide)).trans (W1_arg1 m ρ c)

theorem V3_v11 (c : Dev nD) : (V3 m ρ c main_v11 : S10000x256.Idx → EReal) = P1 m c := by
  show StableHlo.after hostOps1 (W2 m ρ c) (Proc.devRef .tc main_v11) = _
  dsimp only [hostOps1]
  after_results
  exact (W2_arr m ρ c 3).trans (R0_p m ρ c)

theorem V3_v10_0 (c : Dev nD) : (V3 m ρ c main_v10_0 : S10000x256.Idx → EReal) = S1 m c := by
  show StableHlo.after hostOps1 (W2 m ρ c) (Proc.devRef .tc main_v10_0) = _
  dsimp only [hostOps1]
  after_results
  exact (W2_arr m ρ c 2).trans (R0_s m ρ c)

theorem V3_v9 (c : Dev nD) : (V3 m ρ c main_v9 : S256x256.Idx → EReal) = (V1 m ρ c main_v9 : S256x256.Idx → EReal) := by
  show StableHlo.after hostOps1 (W2 m ρ c) (Proc.devRef .tc main_v9) = _
  dsimp only [hostOps1]
  after_results
  exact W2_of_ne m ρ c main_v9 (by decide)

theorem cin1_left (c : Dev nD) (k : Fin 256) (j : Fin 128) :
    K1.cin (V3 m ρ) c (ix2 k (⟨j.val, by omega⟩ : Fin 256)) = wl (C := 512) (D := 256) rfl (Wb m c) j k := by
  show (V3 m ρ c main_v9 : S256x256.Idx → EReal) (ix2 k _) = _
  rw [V3_v9, V1_v9]
  exact rearr_left rfl rfl (Wb m c) _ _ _ _ k j

theorem cin1_right (c : Dev nD) (k : Fin 256) (j : Fin 128) :
    K1.cin (V3 m ρ) c (ix2 k (⟨128 + j.val, by omega⟩ : Fin 256)) = wr (C := 512) (D := 256) rfl (Wb m c) j k := by
  show (V3 m ρ c main_v9 : S256x256.Idx → EReal) (ix2 k _) = _
  rw [V3_v9, V1_v9]
  exact rearr_right rfl rfl (Wb m c) _ _ _ _ k j

/-! ## Region 1's results: the hidden features' two projections, and the degrees -/

/-- The hidden features: the first layer, projection first. -/
def H (c : Dev nD) : Fin 10000 → Fin 256 → EReal := fun r => layerK (C := 512) (D := 256) rfl (A m c) (Wa m c) (X' m c) r

theorem hid_eq (c : Dev nD) (r : Fin 10000) : K1.hid (V3 m ρ) c r = H m c r := by
  have ha : K1.ain (V3 m ρ) c = A m c := V3_arg1 m ρ c
  have hp : K1.pin (V3 m ρ) c = P1 m c := V3_v11 m ρ c
  have hs : K1.sin (V3 m ρ) c = S1 m c := V3_v10_0 m ρ c
  unfold K1.hid
  rw [ha, hp, hs]
  rfl

def S2 (c : Dev nD) : Arr 10000 128 := toArr fun r j => ∑ k : Fin 256, H m c r k * wl (C := 512) (D := 256) rfl (Wb m c) j k
def P2 (c : Dev nD) : Arr 10000 128 := toArr fun r j => ∑ k : Fin 256, H m c r k * wr (C := 512) (D := 256) rfl (Wb m c) j k
def Dg (c : Dev nD) : Arr 10000 1 := toArr fun r _ => deg (N := 10000) (A m c) r

theorem R1_s (c : Dev nD) : (dat1 (F := Ideal) (V3 m ρ) c).arrAt 4 cfg1.N = S2 m c := by
  refine (K1.final_s (V3 m ρ) c).trans ?_
  refine congrArg toArr (funext fun r => funext fun j => Finset.sum_congr rfl fun k _ => ?_)
  rw [hid_eq m ρ c r, cin1_left m ρ c k j]

theorem R1_p (c : Dev nD) : (dat1 (F := Ideal) (V3 m ρ) c).arrAt 5 cfg1.N = P2 m c := by
  refine (K1.final_p (V3 m ρ) c).trans ?_
  refine congrArg toArr (funext fun r => funext fun j => Finset.sum_congr rfl fun k _ => ?_)
  rw [hid_eq m ρ c r, cin1_right m ρ c k j]

theorem R1_d (c : Dev nD) : (dat1 (F := Ideal) (V3 m ρ) c).arrAt 6 cfg1.N = Dg m c := by
  refine (K1.final_d (V3 m ρ) c).trans ?_
  have ha : K1.ain (V3 m ρ) c = A m c := V3_arg1 m ρ c
  rw [ha]
  rfl

/-! ## Region 2's entry contents -/

theorem V5_arg1 (c : Dev nD) : (V5 m ρ c main_arg1 : S10000x10000.Idx → EReal) = A m c := by
  show StableHlo.after hostOps2 (W4 m ρ c) (Proc.devRef .tc main_arg1) = _
  dsimp only [hostOps2]
  after_results
  exact ((W4_arr m ρ c 0).trans (((dat1 (V3 m ρ) c).arrAt_in 0 rfl _).trans (A_eq1 (V3 m ρ) c 0))).trans (V3_arg1 m ρ c)

theorem V5_v13 (c : Dev nD) : (V5 m ρ c main_v13 : S10000x128.Idx → EReal) = P2 m c := by
  show StableHlo.after hostOps2 (W4 m ρ c) (Proc.devRef .tc main_v13) = _
  dsimp only [hostOps2]
  after_results
  exact (W4_arr m ρ c 5).trans (R1_p m ρ c)

theorem V5_v12_0 (c : Dev nD) : (V5 m ρ c main_v12_0 : S10000x128.Idx → EReal) = S2 m c := by
  show StableHlo.after hostOps2 (W4 m ρ c) (Proc.devRef .tc main_v12_0) = _
  dsimp only [hostOps2]
  after_results
  exact (W4_arr m ρ c 4).trans (R1_s m ρ c)

theorem V5_v12_2 (c : Dev nD) : (V5 m ρ c main_v12_2 : S10000x1.Idx → EReal) = Dg m c := by
  show StableHlo.after hostOps2 (W4 m ρ c) (Proc.devRef .tc main_v12_2) = _
  dsimp only [hostOps2]
  after_results
  exact (W4_arr m ρ c 6).trans (R1_d m ρ c)

/-! ## The result -/

/-- After the last region the result array holds the second layer of the hidden features, projection first. -/
theorem kernel_value (c : Dev nD) :
    (W6 m ρ c (Proc.devRef .tc main_v14) : S10000x128.Idx → EReal)
      = toArr fun r => layerK (C := 512) (D := 256) rfl (A m c) (Wb m c) (H m c) r := by
  refine (W6_arr m ρ c 4).trans ?_
  refine (K2.final_o (V5 m ρ) c).trans ?_
  have ha : K2.ain (V5 m ρ) c = A m c := V5_arg1 m ρ c
  have hp : K2.pin (V5 m ρ) c = P2 m c := V5_v13 m ρ c
  have hs : K2.sin (V5 m ρ) c = S2 m c := V5_v12_0 m ρ c
  have hd : K2.din (V5 m ρ) c = Dg m c := V5_v12_2 m ρ c
  rw [ha, hp, hs, hd]
  rfl

end Sage.Chain

end
-- ==== Proof.RefValue.lean ====
/-
  The reference program's result, entry by entry: two layers in the formula's own arrangement.
-/
import proofs.«178860_g29755533426829_cont_9to1_2196_2_alg».proof.Defs
import proofs.«178860_g29755533426829_cont_9to1_2196_2_alg».proof.Proof.Gen.ReferenceIdeal.Run
import proofs.«178860_g29755533426829_cont_9to1_2196_2_alg».proof.Proof.Gen.ReferenceIdeal.Read
import proofs.«178860_g29755533426829_cont_9to1_2196_2_alg».proof.Proof.Spec

noncomputable section

open scoped BigOperators

namespace Sage

open Idealize.ShloMosaic Idealize.ShloMosaic.ValueIdx Cert.ReferenceIdeal

/-- The index of the row sum with column `l` put back into row `r`. -/
theorem lift_row (h : (⟨2, ![10000, 10000]⟩ : Shape).Reduces [1] (⟨1, ![10000]⟩ : Shape)) (r : Fin 10000)
    (l : Fin ((⟨2, ![10000, 10000]⟩ : Shape).size 1)) : h.lift (ix1 r) l = ix2 r (⟨l.val, l.isLt⟩ : Fin 10000) := by
  funext a; apply Fin.ext
  fin_cases a <;> rfl

/-- The divisor of the reference at `(r, k)`: the row sum of the edge weights from zero, as one column, plus a column
    of ones, spread over the columns — the degree of node `r` plus one. -/
theorem deg_apply {D : ℕ} (A : FVec Ideal ⟨2, ![10000, 10000]⟩ .f32)
    (hred : (⟨2, ![10000, 10000]⟩ : Shape).ReducesTo [1] ⟨1, ![10000]⟩) (hu : 0 < (⟨0, ![]⟩ : Shape).numel)
    (hsc : (⟨1, ![10000]⟩ : Shape).ShapeCasts ⟨2, ![10000, 1]⟩)
    (hb0 : (⟨0, ![]⟩ : Shape).BroadcastsInDim ⟨2, ![10000, 1]⟩ ![])
    (hb1 : (⟨2, ![10000, 1]⟩ : Shape).BroadcastsInDim ⟨2, ![10000, D]⟩ ![0, 1])
    (r : Fin 10000) (k : Fin D) :
    broadcastInDim ⟨2, ![10000, D]⟩ ![0, 1] hb1
      (addf (shapeCast ⟨2, ![10000, 1]⟩ (Host.reduceAdd A (constant (F := Ideal) ⟨0, ![]⟩ .f32 0x00000000#32) hred hu) hsc)
        (broadcastInDim ⟨2, ![10000, 1]⟩ ![] hb0 (constant (F := Ideal) ⟨0, ![]⟩ .f32 0x3F800000#32))) (ix2 r k)
      = deg A r := by
  rw [broadcastInDim_apply _ hb1 _ (ix2 r k) (ix2 r (0 : Fin 1)) (fun a => by
    match a with
    | ⟨0, _⟩ => show r.val = if (10000 : ℕ) = 1 then 0 else r.val; rw [if_neg (by decide)]
    | ⟨1, _⟩ => show 0 = if (1 : ℕ) = 1 then 0 else _; rw [if_pos rfl])]
  show shapeCast ⟨2, ![10000, 1]⟩ (Host.reduceAdd A (constant (F := Ideal) ⟨0, ![]⟩ .f32 0x00000000#32) hred hu) hsc (ix2 r (0 : Fin 1))
      + broadcastInDim ⟨2, ![10000, 1]⟩ ![] hb0 (constant (F := Ideal) ⟨0, ![]⟩ .f32 0x3F800000#32) (ix2 r (0 : Fin 1)) = _
  rw [shapeCast_apply _ hsc (ix2 r (0 : Fin 1)) (ix1 r) (by
    rw [Shape.rowMajor_val_one, Shape.rowMajor_val_two]; show r.val = r.val * 1 + 0; omega)]
  rw [hostReduceAdd_apply, Ideal.hostReduceAdd_single hred (by decide)]
  rw [broadcastInDim_scalar_apply, constant_apply, constant_apply, Ideal.ofBits_zero_f32, Ideal.ofBits_one_f32, zero_add]
  unfold deg
  refine congrArg (· + 1) (Finset.sum_congr rfl fun l _ => ?_)
  rw [lift_row]
  rfl

/-- One layer of the reference at `(r, j)`: the features and their neighbourhood means joined along the columns,
    times the transposed weight, positive part against a zero column — the layer in the formula's own arrangement. -/
theorem layer_apply {O : ℕ} (A : FVec Ideal ⟨2, ![10000, 10000]⟩ .f32) (Y : FVec Ideal ⟨2, ![10000, 256]⟩ .f32)
    (W : FVec Ideal ⟨2, ![O, 512]⟩ .f32)
    (hred : (⟨2, ![10000, 10000]⟩ : Shape).ReducesTo [1] ⟨1, ![10000]⟩) (hu : 0 < (⟨0, ![]⟩ : Shape).numel)
    (hsc : (⟨1, ![10000]⟩ : Shape).ShapeCasts ⟨2, ![10000, 1]⟩)
    (hb0 : (⟨0, ![]⟩ : Shape).BroadcastsInDim ⟨2, ![10000, 1]⟩ ![])
    (hb1 : (⟨2, ![10000, 1]⟩ : Shape).BroadcastsInDim ⟨2, ![10000, 256]⟩ ![0, 1])
    (hcat : Shape.Concatenates [(⟨2, ![10000, 256]⟩ : Shape), ⟨2, ![10000, 256]⟩] ⟨2, ![10000, 512]⟩ 1)
    (htr : (⟨2, ![O, 512]⟩ : Shape).Transposes [1, 0] ⟨2, ![512, O]⟩)
    (hbz : (⟨0, ![]⟩ : Shape).BroadcastsInDim ⟨2, ![10000, O]⟩ ![])
    (d1 : DotDims ⟨2, ![10000, 10000]⟩ ⟨2, ![10000, 256]⟩ ⟨2, ![10000, 256]⟩) (hd1 : d1 = DotDims.plain 10000 10000 256)
    (d2 : DotDims ⟨2, ![10000, 512]⟩ ⟨2, ![512, O]⟩ ⟨2, ![10000, O]⟩) (hd2 : d2 = DotDims.plain 10000 512 O)
    (r : Fin 10000) (j : Fin O) :
    maximumf
        (Host.dotGeneral d2 none
          (concatenate ⟨2, ![10000, 512]⟩ 1
            [⟨⟨2, ![10000, 256]⟩, Y⟩,
             ⟨⟨2, ![10000, 256]⟩, Host.divf (Host.dotGeneral d1 none A Y)
                (broadcastInDim ⟨2, ![10000, 256]⟩ ![0, 1] hb1
                  (addf (shapeCast ⟨2, ![10000, 1]⟩ (Host.reduceAdd A (constant (F := Ideal) ⟨0, ![]⟩ .f32 0x00000000#32) hred hu) hsc)
                    (broadcastInDim ⟨2, ![10000, 1]⟩ ![] hb0 (constant (F := Ideal) ⟨0, ![]⟩ .f32 0x3F800000#32))))⟩] hcat)
          (transpose ⟨2, ![512, O]⟩ [1, 0] W htr))
        (broadcastInDim ⟨2, ![10000, O]⟩ ![] hbz (constant (F := Ideal) ⟨0, ![]⟩ .f32 0x00000000#32)) (ix2 r j)
      = layerR (N := 10000) (D := 256) (O := O) (C := 512) A W (fun r' k => Y (ix2 r' k)) r j := by
  rw [RowOps.relu_host_apply]
  unfold layerR
  refine congrArg (fun f => RowOps.relu f j) (funext fun j' => ?_)
  rw [RowOps.dotGeneral_plain_apply d2 hd2]
  refine Finset.sum_congr rfl fun k _ => ?_
  rw [transpose_ix2_apply, RowOps.cat2_apply _ _ hcat rfl]
  refine congrArg (fun m => RowOps.cat2 512 (fun k => Y (ix2 r k)) m k * W (ix2 j' k)) (funext fun c => ?_)
  rw [hostDivf_apply, RowOps.dotGeneral_plain_apply d1 hd1, deg_apply]
  rfl

/-- The reference's last stage is two layers, each the concatenation of the features with their neighbourhood mean
    times the transposed weight. -/
theorem ref_value (x0 : FVec Ideal S10000x256 .f32) (x1 : FVec Ideal S10000x10000 .f32)
    (x2 : FVec Ideal S256x512 .f32) (x3 : FVec Ideal S128x512 .f32) :
    Cert.ReferenceIdeal.Read.val_main_v21 (F := Ideal) x0 x1 x2 x3
      = toArr (fun r => layerR (N := 10000) (D := 256) (O := 128) (C := 512) x1 x3
          (fun r' => layerR (N := 10000) (D := 256) (O := 256) (C := 512) x1 x2 (fun r'' k => x0 (ix2 r'' k)) r') r) := by
  refine arr_ext _ _ fun r j => ?_
  -- the outer layer, over the first layer's result as its features
  have outer : Read.val_main_v21 (F := Ideal) x0 x1 x2 x3 (ix2 r j)
      = layerR (N := 10000) (D := 256) (O := 128) (C := 512) x1 x3
          (fun r' k => Read.val_main_v10 (F := Ideal) x0 x1 x2 (ix2 r' k)) r j := by
    unfold Read.val_main_v21 Read.val_main_v20 Read.val_main_v19 Read.val_main_v18 Read.val_main_v17 Read.val_main_v16
      Read.val_main_v15 Read.val_main_v14 Read.val_main_v13 Read.val_main_v12 Read.val_main_v11 Read.val_main_cst_1
      Read.val_main_cst_2 Read.val_main_call1_v0 Read.val_main_call1_cst
    exact layer_apply (O := 128) x1 (Read.val_main_v10 (F := Ideal) x0 x1 x2) x3 _ _ _ _ _ _ _ _ _ rfl _ rfl r j
  -- the inner layer, over the input features
  have inner : ∀ (r' : Fin 10000) (k : Fin 256), Read.val_main_v10 (F := Ideal) x0 x1 x2 (ix2 r' k)
      = layerR (N := 10000) (D := 256) (O := 256) (C := 512) x1 x2 (fun r'' k => x0 (ix2 r'' k)) r' k := by
    intro r' k
    unfold Read.val_main_v10 Read.val_main_v9 Read.val_main_v8 Read.val_main_v7 Read.val_main_v6 Read.val_main_v5
      Read.val_main_v4 Read.val_main_v3 Read.val_main_v2 Read.val_main_v1 Read.val_main_v0 Read.val_main_cst
      Read.val_main_cst_0 Read.val_main_call0_v0 Read.val_main_call0_cst
    exact layer_apply (O := 256) x1 x0 x2 _ _ _ _ _ _ _ _ _ rfl _ rfl r' k
  rw [outer]
  exact congrArg (fun Yf => layerR (N := 10000) (D := 256) (O := 128) (C := 512) x1 x3 Yf r j)
    (funext fun r' => funext fun k => inner r' k)

end Sage

end
-- ==== Proof.PreDecode.lean ====
/-
  What the precondition says of the four inputs: every entry is a real number, and no node's weighted
  degree plus one vanishes.
-/
import proofs.«178860_g29755533426829_cont_9to1_2196_2_alg».proof.Pre_finite_inputs
import proofs.«178860_g29755533426829_cont_9to1_2196_2_alg».proof.Proof.Spec
import Idealize.ShloMosaic.Lib.ReduceAll

noncomputable section

open scoped BigOperators

namespace Sage

open Idealize.ShloMosaic Idealize.ShloMosaic.ValueIdx

namespace PreDecode

/-- The array of rank zero has one index. -/
theorem subsingleton_scalar_idx : Subsingleton Cert.Pre_finite_inputs.S_.Idx := ⟨fun a b => funext fun d => d.elim0⟩

/-- The binary32 pattern with all exponent bits set and no fraction bit is +∞. -/
theorem ofBits_inf_f32 : Ideal.ofBits .f32 0x7F800000#32 = (⊤ : EReal) := by
  simp [Ideal.ofBits, Ideal.ieee]

/-- An extended real whose absolute value, max v (-v), lies strictly below +∞ is a real: at either
    infinity the maximum is +∞ itself. -/
theorem real_of_abs_lt_inf (v : EReal)
    (h : Ideal.cmp .olt (max v (-v)) (Ideal.ofBits .f32 0x7F800000#32) = 1#1) : ∃ y : ℝ, v = (y : EReal) := by
  rw [ofBits_inf_f32] at h
  induction v using EReal.rec with
  | bot => simp [Ideal.cmp] at h
  | coe y => exact ⟨y, rfl⟩
  | top => simp [Ideal.cmp] at h

/-- "Every |v i| is below +∞", as the conjunction over all entries that comes out one, makes every entry a real. -/
theorem isReal_of_all_lt_inf {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf v) (broadcastInDim s ![] hb (constant Cert.Pre_finite_inputs.S_ .f32 0x7F800000#32)))
        (constantI Cert.Pre_finite_inputs.S_ 1 1#1) hr hu ix0 = 1#1) : IsReal v := by
  haveI := subsingleton_scalar_idx
  intro i
  exact real_of_abs_lt_inf (v i) (Host.reduce_andi_all _ _ hr hu ix0 e i)

/-- Row `r` of the square array, entry by entry: the index of the row sum at `r` with the column `l` put back
    on the summed axis is (r, l). -/
theorem lift_row (hR : Shape.Reduces Cert.Pre_finite_inputs.S10000x10000 [1] Cert.Pre_finite_inputs.S10000)
    (r : Fin 10000) (l : Fin 10000) : hR.lift (ix1 r) l = ix2 r l := by
  funext d
  apply Fin.ext
  match d with
  | ⟨0, _⟩ => rfl
  | ⟨1, _⟩ => rfl

/-- "The row sum of `a` from zero, plus one, differs from zero", read at row `r`: the weighted degree of `r`
    plus one is not zero. The comparison is the order's own (an unordered "not equal" answers as the ordered one), the
    row sum is zero plus the sum over the columns, and the two constants are the reals one and zero. -/
theorem deg_ne_zero_of_une (a : FVec Ideal Cert.Pre_finite_inputs.S10000x10000 .f32)
    (hrd : Cert.Pre_finite_inputs.S10000x10000.ReducesTo [1] Cert.Pre_finite_inputs.S10000)
    (hu : 0 < Cert.Pre_finite_inputs.S_.numel)
    (hb : Cert.Pre_finite_inputs.S_.BroadcastsInDim Cert.Pre_finite_inputs.S10000 (![] : Fin 0 → Fin Cert.Pre_finite_inputs.S10000.rank))
    (r : Fin 10000)
    (hd : cmpf .une
        (addf (Host.reduceAdd a (constant Cert.Pre_finite_inputs.S_ .f32 0x00000000#32) hrd hu)
          (broadcastInDim Cert.Pre_finite_inputs.S10000 ![] hb (constant Cert.Pre_finite_inputs.S_ .f32 0x3F800000#32)))
        (broadcastInDim Cert.Pre_finite_inputs.S10000 ![] hb (constant Cert.Pre_finite_inputs.S_ .f32 0x00000000#32)) (ix1 r) = 1#1) :
    deg (N := 10000) a r ≠ 0 := by
  have hR : Shape.Reduces Cert.Pre_finite_inputs.S10000x10000 [1] Cert.Pre_finite_inputs.S10000 := by decide
  have e : Host.reduceAdd a (constant Cert.Pre_finite_inputs.S_ .f32 0x00000000#32) hrd hu (ix1 r)
      = ∑ l : Fin 10000, a (ix2 r l) := by
    rw [hostReduceAdd_apply, Ideal.hostReduceAdd_single hrd hR, constant_apply, Ideal.ofBits_zero_f32, zero_add]
    exact Finset.sum_congr rfl fun l _ => congrArg a (lift_row hR r l)
  have hd' : Ideal.cmp .une (Host.reduceAdd a (constant Cert.Pre_finite_inputs.S_ .f32 0x00000000#32) hrd hu (ix1 r)
      + Ideal.ofBits .f32 0x3F800000#32) (Ideal.ofBits .f32 0x00000000#32) = 1#1 := hd
  rw [e, Ideal.ofBits_one_f32, Ideal.ofBits_zero_f32] at hd'
  unfold deg
  intro hz
  rw [hz] at hd'
  simp [Ideal.cmp] at hd'

end PreDecode

theorem pre_decode [Cert.Pre_finite_inputs.Facts]
    (x : FVec Ideal Cert.Pre_finite_inputs.S10000x256 .f32) (a : FVec Ideal Cert.Pre_finite_inputs.S10000x10000 .f32)
    (w1 : FVec Ideal Cert.Pre_finite_inputs.S256x512 .f32) (w2 : FVec Ideal Cert.Pre_finite_inputs.S128x512 .f32)
    (h : Cert.Pre_finite_inputs.fn (F := Ideal) x a w1 w2 = fun _ => 1#1) :
    IsReal x ∧ IsReal a ∧ IsReal w1 ∧ IsReal w2 ∧ ∀ r : Fin 10000, deg (N := 10000) a r ≠ 0 := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨PreDecode.isReal_of_all_lt_inf x _ _ _ h1, PreDecode.isReal_of_all_lt_inf a _ _ _ h2,
    PreDecode.isReal_of_all_lt_inf w1 _ _ _ h3, PreDecode.isReal_of_all_lt_inf w2 _ _ _ h4, fun r => ?_⟩
  haveI := PreDecode.subsingleton_scalar_idx
  have hd := Host.reduce_andi_all _ _ _ _ ix0 h5 (ix1 r)
  exact PreDecode.deg_ne_zero_of_une a _ _ _ r hd

end Sage

end
-- ==== Proof.Algebra.lean ====
/-
  The two arrangements of a graph-convolution layer agree on real data with no vanishing degree,
  and such a layer's output is real again.
-/
import proofs.«178860_g29755533426829_cont_9to1_2196_2_alg».proof.Proof.Spec

noncomputable section

open scoped BigOperators

namespace Sage

open Idealize.ShloMosaic Idealize.ShloMosaic.ValueIdx

variable {N D O C : ℕ}

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  refine Finset.induction_on s ?_ ?_
  · simp
  · intro i t hi ih
    rw [Finset.sum_insert hi, Finset.sum_insert hi, ih, EReal.coe_add]

/-- The degree of a real adjacency is the real degree. -/
theorem deg_coe (a : (⟨2, ![N, N]⟩ : Shape).Idx → ℝ) (r : Fin N) :
    deg (fun i => (a i : EReal)) r = (((∑ l : Fin N, a (ix2 r l)) + 1 : ℝ) : EReal) := by
  unfold deg
  rw [coe_sum, EReal.coe_add, EReal.coe_one]

/-- The neighbourhood mean of real features over a nonzero real degree is a real number:
    the quotient is the product with the reciprocal. -/
theorem mean_coe (a : (⟨2, ![N, N]⟩ : Shape).Idx → ℝ) (y : Fin N → Fin D → ℝ) (r : Fin N) (k : Fin D)
    (hd : (∑ l : Fin N, a (ix2 r l)) + 1 ≠ 0) :
    mean (fun i => (a i : EReal)) (fun l k => (y l k : EReal)) r k
      = (((∑ l : Fin N, a (ix2 r l) * y l k) * (1 / ((∑ l : Fin N, a (ix2 r l)) + 1)) : ℝ) : EReal) := by
  unfold mean
  rw [deg_coe, Ideal.div_coe hd]
  simp only [← EReal.coe_mul]
  rw [coe_sum, ← EReal.coe_mul]

/-- In the left half two rows laid end to end read the first row. -/
theorem cat2_castAdd (x : Fin D → EReal) (z : Fin D → EReal) (k : Fin D) :
    RowOps.cat2 (D + D) x z (Fin.castAdd D k) = x k := by
  unfold RowOps.cat2
  rw [dif_pos (by simp)]
  rfl

/-- In the right half two rows laid end to end read the second row. -/
theorem cat2_natAdd (x : Fin D → EReal) (z : Fin D → EReal) (k : Fin D) :
    RowOps.cat2 (D + D) x z (Fin.natAdd D k) = z k := by
  unfold RowOps.cat2
  rw [dif_neg (by simp), dif_pos (by simp)]
  congr 1
  ext
  simp

/-- The positive part of a row of real numbers, taken in the extended reals, is the real positive part:
    the embedding of the reals is monotone, so it commutes with the maximum. -/
theorem relu_coe {H : ℕ} (x : Fin H → ℝ) (h : Fin H) :
    RowOps.relu (fun h => (x h : EReal)) h = ((max (x h) 0 : ℝ) : EReal) := by
  unfold RowOps.relu
  rw [Ideal.ofBits_zero_f32, ← EReal.coe_zero]
  exact (EReal.coe_strictMono.monotone.map_max).symm

/-- The real number whose positive part the formula's arrangement computes at node `r`, output `j`:
    features against the left half of the weights, plus neighbourhood means against the right half. -/
def preR (a : (⟨2, ![N, N]⟩ : Shape).Idx → ℝ) (w : (⟨2, ![O, D + D]⟩ : Shape).Idx → ℝ)
    (y : Fin N → Fin D → ℝ) (r : Fin N) (j : Fin O) : ℝ :=
  (∑ k : Fin D, y r k * w (ix2 j (Fin.castAdd D k)))
    + ∑ k : Fin D, ((∑ l : Fin N, a (ix2 r l) * y l k) * (1 / ((∑ l : Fin N, a (ix2 r l)) + 1)))
        * w (ix2 j (Fin.natAdd D k))

/-- The real number whose positive part the projection-first arrangement computes: features against the
    left half of the weights, plus the aggregated right-half projections over the degree. -/
def preK (a : (⟨2, ![N, N]⟩ : Shape).Idx → ℝ) (w : (⟨2, ![O, D + D]⟩ : Shape).Idx → ℝ)
    (y : Fin N → Fin D → ℝ) (r : Fin N) (j : Fin O) : ℝ :=
  (∑ k : Fin D, y r k * w (ix2 j (Fin.castAdd D k)))
    + (∑ l : Fin N, a (ix2 r l) * ∑ k : Fin D, y l k * w (ix2 j (Fin.natAdd D k)))
        * (1 / ((∑ l : Fin N, a (ix2 r l)) + 1))

/-- Over the reals the two pre-activations agree: the reciprocal of the degree is a constant of the row,
    so it moves out of the sum over features, and the two finite sums change places. -/
theorem preK_eq_preR (a : (⟨2, ![N, N]⟩ : Shape).Idx → ℝ) (w : (⟨2, ![O, D + D]⟩ : Shape).Idx → ℝ)
    (y : Fin N → Fin D → ℝ) (r : Fin N) (j : Fin O) : preK a w y r j = preR a w y r j := by
  unfold preK preR
  congr 1
  simp only [Finset.sum_mul, Finset.mul_sum]
  rw [Finset.sum_comm]
  refine Finset.sum_congr rfl fun k _ => Finset.sum_congr rfl fun l _ => ?_
  ring

/-- The formula's arrangement on real data with a nonzero degree: the positive part of real numbers. -/
theorem layerR_coe (a : (⟨2, ![N, N]⟩ : Shape).Idx → ℝ) (w : (⟨2, ![O, D + D]⟩ : Shape).Idx → ℝ)
    (y : Fin N → Fin D → ℝ) (r : Fin N)
    (hd : (∑ l : Fin N, a (ix2 r l)) + 1 ≠ 0) :
    layerR (fun i => (a i : EReal)) (fun i => (w i : EReal)) (fun l k => (y l k : EReal)) r
      = RowOps.relu fun j => ((preR a w y r j : ℝ) : EReal) := by
  unfold layerR preR
  congr 1
  funext j
  rw [Fin.sum_univ_add]
  simp only [cat2_castAdd, cat2_natAdd, mean_coe a y r _ hd, ← EReal.coe_mul]
  rw [coe_sum, coe_sum, ← EReal.coe_add]

/-- The projection-first arrangement on real data with a nonzero degree: the positive part of real numbers. -/
theorem layerK_coe (a : (⟨2, ![N, N]⟩ : Shape).Idx → ℝ) (w : (⟨2, ![O, D + D]⟩ : Shape).Idx → ℝ)
    (y : Fin N → Fin D → ℝ) (r : Fin N)
    (hd : (∑ l : Fin N, a (ix2 r l)) + 1 ≠ 0) :
    layerK rfl (fun i => (a i : EReal)) (fun i => (w i : EReal)) (fun l k => (y l k : EReal)) r
      = RowOps.relu fun j => ((preK a w y r j : ℝ) : EReal) := by
  unfold layerK preK
  congr 1
  funext j
  rw [deg_coe, Ideal.div_coe hd]
  have hl : ∀ k : Fin D, wl rfl (fun i => (w i : EReal)) j k = (w (ix2 j (Fin.castAdd D k)) : EReal) := fun _ => rfl
  have hr : ∀ k : Fin D, wr rfl (fun i => (w i : EReal)) j k = (w (ix2 j (Fin.natAdd D k)) : EReal) := fun _ => rfl
  simp only [hl, hr, ← EReal.coe_mul]
  simp only [coe_sum, ← EReal.coe_mul]
  rw [← EReal.coe_add]

/-- On real data with no vanishing degree the two arrangements of a layer agree. -/
theorem layerK_eq_layerR (hC : C = D + D) (A : Arr N N) (W : Arr O C) (Y : Fin N → Fin D → EReal)
    (hA : IsReal A) (hW : IsReal W) (hY : ∀ r, IsReal (Y r)) (hd : ∀ r, deg A r ≠ 0) :
    layerK hC A W Y = layerR A W Y := by
  subst hC
  choose a ha using hA
  choose w hw using hW
  choose y hy using hY
  obtain rfl : A = fun i => (a i : EReal) := funext ha
  obtain rfl : W = fun i => (w i : EReal) := funext hw
  obtain rfl : Y = fun l k => (y l k : EReal) := funext fun l => funext (hy l)
  funext r
  have hr : (∑ l : Fin N, a (ix2 r l)) + 1 ≠ 0 := by
    intro h
    apply hd r
    rw [deg_coe, h, EReal.coe_zero]
  rw [layerK_coe a w y r hr, layerR_coe a w y r hr]
  congr 1
  funext j
  rw [preK_eq_preR]

/-- On real data with no vanishing degree a layer's output is real again. -/
theorem layerR_isReal (hC : C = D + D) (A : Arr N N) (W : Arr O C) (Y : Fin N → Fin D → EReal)
    (hA : IsReal A) (hW : IsReal W) (hY : ∀ r, IsReal (Y r)) (hd : ∀ r, deg A r ≠ 0) :
    ∀ r, IsReal (layerR A W Y r) := by
  subst hC
  choose a ha using hA
  choose w hw using hW
  choose y hy using hY
  obtain rfl : A = fun i => (a i : EReal) := funext ha
  obtain rfl : W = fun i => (w i : EReal) := funext hw
  obtain rfl : Y = fun l k => (y l k : EReal) := funext fun l => funext (hy l)
  intro r j
  have hr : (∑ l : Fin N, a (ix2 r l)) + 1 ≠ 0 := by
    intro h
    apply hd r
    rw [deg_coe, h, EReal.coe_zero]
  rw [layerR_coe a w y r hr, relu_coe]
  exact ⟨_, rfl⟩

end Sage

end
-- ==== Proof.lean ====
/-
  The kernel computes two stacked graph-convolution layers with mean aggregation,
      h' = relu ( [ h | (A·h) / d ] · Wᵀ ),     d r = (∑ l, A r l) + 1,
  in the arrangement  relu ( h·Wlᵀ + (A·(h·Wrᵀ)) / d )  with W = [Wl | Wr]: the features are projected first and the
  projected features aggregated, in three passes over blocks of 400 nodes (the two projections of the input; the hidden
  features with their two projections and the degrees; the output).  The reference computes the formula as it stands.
  On finite inputs whose degrees-plus-one do not vanish every quantity is a real number and the two arrangements agree,
  because the division by `d r` is a product with a constant of the row and finite sums commute.  The frames are the
  programs' generated frame certificates (the reference's: its run with the result dropped); the ideal pass rewrote
  nothing, so the preservation claim is empty.
-/
import proofs.«178860_g29755533426829_cont_9to1_2196_2_alg».proof.Defs
import proofs.«178860_g29755533426829_cont_9to1_2196_2_alg».proof.Proof.Gen.Kernel
import proofs.«178860_g29755533426829_cont_9to1_2196_2_alg».proof.Proof.Gen.Kernel.Skeleton
import proofs.«178860_g29755533426829_cont_9to1_2196_2_alg».proof.Proof.Gen.Kernel.Launch
import proofs.«178860_g29755533426829_cont_9to1_2196_2_alg».proof.Proof.Gen.Kernel.Points
import proofs.«178860_g29755533426829_cont_9to1_2196_2_alg».proof.Proof.Gen.Kernel.Frame
import proofs.«178860_g29755533426829_cont_9to1_2196_2_alg».proof.Proof.Gen.KernelIdeal
import proofs.«178860_g29755533426829_cont_9to1_2196_2_alg».proof.Proof.Gen.KernelIdeal.Skeleton
import proofs.«178860_g29755533426829_cont_9to1_2196_2_alg».proof.Proof.Gen.KernelIdeal.Launch
import proofs.«178860_g29755533426829_cont_9to1_2196_2_alg».proof.Proof.Gen.KernelIdeal.Points
import proofs.«178860_g29755533426829_cont_9to1_2196_2_alg».proof.Proof.Gen.KernelIdeal.Frame
import proofs.«178860_g29755533426829_cont_9to1_2196_2_alg».proof.Proof.Gen.ReferenceIdeal
import proofs.«178860_g29755533426829_cont_9to1_2196_2_alg».proof.Proof.Gen.ReferenceIdeal.Run
import proofs.«178860_g29755533426829_cont_9to1_2196_2_alg».proof.Proof.Gen.ReferenceIdeal.Read
import proofs.«178860_g29755533426829_cont_9to1_2196_2_alg».proof.Proof.Gen.Pre_finite_inputs
import proofs.«178860_g29755533426829_cont_9to1_2196_2_alg».proof.Proof.KRun
import proofs.«178860_g29755533426829_cont_9to1_2196_2_alg».proof.Proof.KChain
import proofs.«178860_g29755533426829_cont_9to1_2196_2_alg».proof.Proof.RefValue
import proofs.«178860_g29755533426829_cont_9to1_2196_2_alg».proof.Proof.PreDecode
import proofs.«178860_g29755533426829_cont_9to1_2196_2_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two layers of the inputs: the kernel in the arrangement with the projection first,
    the reference in the formula's own; on real inputs with no vanishing degree the two are one function, layer by layer. -/
theorem algebraic : Cert.algebraic_KernelIdeal_ReferenceIdeal := by
  intro m ρ m' ρ' hpre hagree
  refine ⟨fun c => Sage.toArr fun r => Sage.layerK (C := 512) (D := 256) rfl (Sage.Chain.A m c) (Sage.Chain.Wb m c) (Sage.Chain.H m c) r, ?_, ?_⟩
  · exact (θ_run Cert.KernelIdeal.defs _ _).mono (fun r h c => ⟨(h c).1.trans (Sage.Chain.kernel_value m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v21_eq _ _ _ _).trans ?_
    rw [Sage.ref_value, (hagree c).1, (hagree c).2.1, (hagree c).2.2.1, (hagree c).2.2.2]
    obtain ⟨hx, ha, hw1, hw2, hd⟩ := Sage.pre_decode _ _ _ _ (hpre c)
    have hX : ∀ r, Sage.IsReal (Sage.Chain.X' m c r) := fun r k => hx (ix2 r k)
    have h1 : Sage.layerK (C := 512) (D := 256) rfl (Sage.Chain.A m c) (Sage.Chain.Wa m c) (Sage.Chain.X' m c)
        = Sage.layerR (Sage.Chain.A m c) (Sage.Chain.Wa m c) (Sage.Chain.X' m c) :=
      Sage.layerK_eq_layerR rfl _ _ _ ha hw1 hX hd
    have hH : ∀ r, Sage.IsReal (Sage.layerR (Sage.Chain.A m c) (Sage.Chain.Wa m c) (Sage.Chain.X' m c) r) :=
      Sage.layerR_isReal (C := 512) (D := 256) rfl _ _ _ ha hw1 hX hd
    have h2 := Sage.layerK_eq_layerR (C := 512) (D := 256) rfl (Sage.Chain.A m c) (Sage.Chain.Wb m c)
      (Sage.layerR (Sage.Chain.A m c) (Sage.Chain.Wa m c) (Sage.Chain.X' m c)) ha hw2 hH hd
    show _ = Sage.toArr fun r => Sage.layerK (C := 512) (D := 256) rfl (Sage.Chain.A m c) (Sage.Chain.Wb m c)
      (Sage.layerK (C := 512) (D := 256) rfl (Sage.Chain.A m c) (Sage.Chain.Wa m c) (Sage.Chain.X' m c)) r
    rw [h1, h2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
